-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  main_v3
-- ==== Kernel.lean ====
abbrev S131072x512 : Shape := ⟨2, ![131072, 512]⟩
abbrev S131072 : Shape := ⟨1, ![131072]⟩
abbrev S131072x1 : Shape := ⟨2, ![131072, 1]⟩
abbrev S64x8x128 : Shape := ⟨3, ![64, 8, 128]⟩
abbrev S2048x512 : Shape := ⟨2, ![2048, 512]⟩
abbrev S2048x1 : Shape := ⟨2, ![2048, 1]⟩
abbrev S1x8x128 : Shape := ⟨3, ![1, 8, 128]⟩
abbrev S8x128 : Shape := ⟨2, ![8, 128]⟩
abbrev S2048 : Shape := ⟨1, ![2048]⟩
abbrev S1 : Shape := ⟨1, ![1]⟩
abbrev S1x1 : Shape := ⟨2, ![1, 1]⟩
abbrev S_ : Shape := ⟨0, ![]⟩
abbrev S1x9 : Shape := ⟨2, ![1, 9]⟩
abbrev S9 : Shape := ⟨1, ![9]⟩
abbrev S11 : Shape := ⟨1, ![11]⟩
abbrev S10 : Shape := ⟨1, ![10]⟩

abbrev nBuf : Space → Nat
  | .hbm => 59
  | .vmem => 8
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S64x8x128, .f32⟩
  | .hbm, ⟨4, _⟩ => ⟨S64x8x128, .f32⟩
  | .hbm, ⟨5, _⟩ => ⟨S64x8x128, .i32⟩
  | .hbm, ⟨6, _⟩ => ⟨S_, .i32⟩
  | .hbm, ⟨7, _⟩ => ⟨S8x128, .i32⟩
  | .hbm, ⟨8, _⟩ => ⟨S1x9, .i32⟩
  | .hbm, ⟨9, _⟩ => ⟨S9, .i32⟩
  | .hbm, ⟨10, _⟩ => ⟨S9, .f32⟩
  | .hbm, ⟨11, _⟩ => ⟨S_, .f32⟩
  | .hbm, ⟨12, _⟩ => ⟨S8x128, .f32⟩
  | .hbm, ⟨13, _⟩ => ⟨S1x9, .f32⟩
  | .hbm, ⟨14, _⟩ => ⟨S9, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S11, .f32⟩
  | .hbm, ⟨22, _⟩ => ⟨S10, .f32⟩
  | .hbm, ⟨23, _⟩ => ⟨S10, .f32⟩
  | .hbm, ⟨24, _⟩ => ⟨S10, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S11, .f32⟩
  | .hbm, ⟨29, _⟩ => ⟨S10, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .i1⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x1, .i32⟩
  | .local _ .vmem, ⟨3, _⟩ => ⟨S2048x1, .i32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S131072_S131072x1 : S131072.ShapeCasts S131072x1
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  iota_S8x128_d1_w32 : S8x128.Iotas .tc 32 [1]
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S64x8x128_S8x128_d0 : S64x8x128.ReducesTo [0] S8x128
  h_S_ : 0 < S_.numel
  slices_S8x128_S1x9_0_1 : S8x128.Slices ![0, 1] S1x9
  shapeCasts_S1x9_S9 : S1x9.ShapeCasts S9
  slices_S8x128_S1x1_0_0 : S8x128.Slices ![0, 0] S1x1
  shapeCasts_S1x1_S_ : S1x1.ShapeCasts S_
  bcast_S_S1 : S_.BroadcastsInDim S1 (![] : Fin 0 → Fin S1.rank)
  concatenates_S1_S9_S1_S11_d0 : Shape.Concatenates [S1, S9, S1] S11 0
  slices_S11_S10_1 : S11.Slices ![1] S10
  slices_S11_S10_0 : S11.Slices ![0] S10
  bcast_S_S10 : S_.BroadcastsInDim S10 (![] : Fin 0 → Fin S10.rank)
  reducesTo_S10_S_d0 : S10.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .i32 = 32 ∨ (Rect.block (s := S131072x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S64x8x128.size a
  hwx0_2 : ∀ i : grid0.Coords, EltTy.bits .f32 = 32 ∨ (Rect.block (s := S64x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S64x8x128.size a
  hwx0_3 : ∀ i : grid0.Coords, EltTy.bits .f32 = 32 ∨ (Rect.block (s := S64x8x128) S1x8x128.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072 : Shape := ⟨1, ![131072]⟩
abbrev S131072x1 : Shape := ⟨2, ![131072, 1]⟩
abbrev S1x512 : Shape := ⟨2, ![1, 512]⟩
abbrev S_ : Shape := ⟨0, ![]⟩
abbrev S67108864 : Shape := ⟨1, ![67108864]⟩
abbrev S10 : Shape := ⟨1, ![10]⟩
abbrev S67108864x1 : Shape := ⟨2, ![67108864, 1]⟩
abbrev S131072x512x1 : Shape := ⟨3, ![131072, 512, 1]⟩

abbrev nBuf : Space → Nat
  | .hbm => 78
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S131072x1, .i32⟩
  | .hbm, ⟨3, _⟩ => ⟨S1x512, .i32⟩
  | .hbm, ⟨4, _⟩ => ⟨S131072x512, .i32⟩
  | .hbm, ⟨5, _⟩ => ⟨S131072x512, .i32⟩
  | .hbm, ⟨6, _⟩ => ⟨S131072x512, .i1⟩
  | .hbm, ⟨7, _⟩ => ⟨S131072x512, .f32⟩
  | .hbm, ⟨8, _⟩ => ⟨S131072x512, .f32⟩
  | .hbm, ⟨9, _⟩ => ⟨S131072x512, .f32⟩
  | .hbm, ⟨10, _⟩ => ⟨S_, .f32⟩
  | .hbm, ⟨11, _⟩ => ⟨S131072x512, .f32⟩
  | .hbm, ⟨12, _⟩ => ⟨S131072x512, .f32⟩
  | .hbm, ⟨13, _⟩ => ⟨S_, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .i32⟩
  | .hbm, ⟨22, _⟩ => ⟨S_, .i32⟩
  | .hbm, ⟨23, _⟩ => ⟨S131072x512, .i32⟩
  | .hbm, ⟨24, _⟩ => ⟨S131072x512, .i32⟩
  | .hbm, ⟨25, _⟩ => ⟨S_, .f32⟩
  | .hbm, ⟨26, _⟩ => ⟨S67108864, .f32⟩
  | .hbm, ⟨27, _⟩ => ⟨S67108864, .i32⟩
  | .hbm, ⟨28, _⟩ => ⟨S_, .f32⟩
  | .hbm, ⟨29, _⟩ => ⟨S10, .f32⟩
  | .hbm, ⟨30, _⟩ => ⟨S67108864x1, .i32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .i1⟩
  | .hbm, ⟨35, _⟩ => ⟨S10, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S10, .f32⟩
  | .hbm, ⟨40, _⟩ => ⟨S10, .f32⟩
  | .hbm, ⟨41, _⟩ => ⟨S_, .f32⟩
  | .hbm, ⟨42, _⟩ => ⟨S10, .f32⟩
  | .hbm, ⟨43, _⟩ => ⟨S10, .f32⟩
  | .hbm, ⟨44, _⟩ => ⟨S_, .f32⟩
  | .hbm, ⟨45, _⟩ => ⟨S_, .f32⟩
  | .hbm, ⟨46, _⟩ => ⟨S10, .f32⟩
  | .hbm, ⟨47, _⟩ => ⟨S10, .f32⟩
  | .hbm, ⟨48, _⟩ => ⟨S_, .i32⟩
  | .hbm, ⟨49, _⟩ => ⟨S131072x512, .i32⟩
  | .hbm, ⟨50, _⟩ => ⟨S131072x512, .i1⟩
  | .hbm, ⟨51, _⟩ => ⟨S_, .i32⟩
  | .hbm, ⟨52, _⟩ => ⟨S131072x512, .i32⟩
  | .hbm, ⟨53, _⟩ => ⟨S131072x512, .i32⟩
  | .hbm, ⟨54, _⟩ => ⟨S131072x512, .i32⟩
  | .hbm, ⟨55, _⟩ => ⟨S131072x512x1, .i32⟩
  | .hbm, ⟨56, _⟩ => ⟨S131072x512, .f32⟩
  | .hbm, ⟨57, _⟩ => ⟨S_, .f32⟩
  | .hbm, ⟨58, _⟩ => ⟨S_, .f32⟩
  | .hbm, ⟨59, _⟩ => ⟨S131072x512, .f32⟩
  | .hbm, ⟨60, _⟩ => ⟨S131072x512, .f32⟩
  | .hbm, ⟨61, _⟩ => ⟨S_, .f32⟩
  | .hbm, ⟨62, _⟩ => ⟨S131072x512, .f32⟩
  | .hbm, ⟨63, _⟩ => ⟨S131072x512, .f32⟩
  | .hbm, ⟨64, _⟩ => ⟨S131072x512, .f32⟩
  | .hbm, ⟨65, _⟩ => ⟨S131072x512, .f32⟩
  | .hbm, ⟨66, _⟩ => ⟨S131072x512, .f32⟩
  | .hbm, ⟨67, _⟩ => ⟨S131072x512, .f32⟩
  | .hbm, ⟨68, _⟩ => ⟨S131072x512, .f32⟩
  | .hbm, ⟨69, _⟩ => ⟨S131072x512, .f32⟩
  | .hbm, ⟨70, _⟩ => ⟨S131072x512, .f32⟩
  | .hbm, ⟨71, _⟩ => ⟨S131072x512, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_call1_v0 : Ref sig .tc := ⟨.hbm, 45, rfl⟩
abbrev main_call1_v1 : Ref sig .tc := ⟨.hbm, 46, rfl⟩
abbrev main_v27 : Ref sig .tc := ⟨.hbm, 47, rfl⟩
abbrev main_c_9 : Ref sig .tc := ⟨.hbm, 48, rfl⟩
abbrev main_v28 : Ref sig .tc := ⟨.hbm, 49, rfl⟩
abbrev main_v29 : Ref sig .tc := ⟨.hbm, 50, rfl⟩
abbrev main_c_10 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_11 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_12 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_13 : Ref sig .tc := ⟨.hbm, 72, rfl⟩
abbrev main_v48 : Ref sig .tc := ⟨.hbm, 73, rfl⟩
abbrev main_cst_14 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S_S67108864 : S_.BroadcastsInDim S67108864 (![] : Fin 0 → Fin S67108864.rank)
  shapeCasts_S131072x512_S67108864 : S131072x512.ShapeCasts S67108864
  bcast_S_S10 : S_.BroadcastsInDim S10 (![] : Fin 0 → Fin S10.rank)
  bcast_S67108864_S67108864x1_0 : S67108864.BroadcastsInDim S67108864x1 (![0] : Fin 1 → Fin S67108864x1.rank)
  reducesTo_S10_S_d0 : S10.ReducesTo [0] S_
  h_S_ : 0 < S_.numel
  bcast_S131072x512_S131072x512x1_0_1 : S131072x512.BroadcastsInDim S131072x512x1 (![0, 1] : Fin 2 → Fin S131072x512x1.rank)
  reducesTo_S131072x512_S_d0_1 : S131072x512.ReducesTo [0, 1] S_
  scatter_S10_S67108864x1_S67108864_n_0_0_1_wf : ScatterDims.WF S10 S67108864x1 S67108864 [] [0] [0] 1
  gather_S10_S131072x512x1_S131072x512_n_0_n_n_0_2_1_wf : GatherDims.WF S10 S131072x512x1 S131072x512 [] [0] [] [0] [] 2 ![1]

variable [Facts₀]

def scatter_S10_S67108864x1_S67108864_n_0_0_1 : ScatterDims S10 S67108864x1 S67108864 where
  updateWindowDims := []
  insertedWindowDims := [0]
  scatterDimsToOperandDims := [0]
  indexVectorDim := 1
  wf := scatter_S10_S67108864x1_S67108864_n_0_0_1_wf
def gather_S10_S131072x512x1_S131072x512_n_0_n_n_0_2_1 : GatherDims S10 S131072x512x1 S131072x512 where
  offsetDims := []
  collapsedSliceDims := [0]
  operandBatchingDims := []
  startIndicesBatchingDims := []
  startIndexMap := [0]
  indexVectorDim := 2
  sliceSizes := ![1]
  wf := gather_S10_S131072x512x1_S131072x512_n_0_n_n_0_2_1_wf

class Facts : Prop extends Facts₀ where

variable [Facts]
-- ==== Proof.KOutI.lean ====
/-
  What the kernel body stores into its two output windows, as functions of the two blocks it loads: the block of
  `pred` (2048 x 512) and the block of labels (2048 x 1). The body computes, for the thresholds k = 1 .. 9, how many
  elements of the block have scaled magnitude below k and the sum of their cross-entropy terms, and lays the nine
  counts on lanes 1 .. 9 of an 8 x 128 tile (every sublane alike), the block's whole cross-entropy sum on lane 0 of the
  second tile and the nine partial sums on its lanes 1 .. 9. The definitions thread the program's own named
  intermediate values in the program's order.
-/
import proofs.«406612_j38671885533680_3_alg».proof.Proof.Gen.KernelIdeal.Skeleton

noncomputable section

namespace Cert.KernelIdeal.Hand

open Idealize.ShloMosaic Cert.KernelIdeal Cert.KernelIdeal.Gen

variable {F : FTy → Type} [FloatOps F]

/-- The lane index of each position of the 8 x 128 tile. -/
def lanes : IVec S8x128 32 := iota .tc S8x128 32 [1] iota_S8x128_d1_w32

/-- The running tiles after the first three thresholds' updates (counts tile, sums tile) and the scaled magnitudes
    and cross-entropy terms they are computed from. -/
def tile3 (v0 : Vec F S2048x512 .f32) (v1 : Vec F S2048x1 .i32) : FVec F S8x128 .f32 × FVec F S8x128 .f32 :=
  let v12 := k0_pay4 v0 v1
  let v22 := k0_pay5 v0 v1
  let v81 := k0_pay12 v12 lanes (k0_pay6 (F := F)) (k0_pay9 v0 v1)
  let v88 := k0_pay13 v12 v22 lanes (k0_pay7 v0 v1) (k0_pay10 v0 v1)
  (k0_pay15 v12 lanes v81, k0_pay16 v12 v22 lanes v88)

/-- The running tiles after thresholds four to six. -/
def tile6 (v0 : Vec F S2048x512 .f32) (v1 : Vec F S2048x1 .i32) : FVec F S8x128 .f32 × FVec F S8x128 .f32 :=
  let v12 := k0_pay4 v0 v1
  let v22 := k0_pay5 v0 v1
  let v162 := k0_pay22 v12 lanes (tile3 v0 v1).1 (k0_pay19 lanes) (Scalar.ofBits .f32 0x00000000#32) (k0_pay20 v12)
  let v169 := k0_pay23 v12 v22 lanes (tile3 v0 v1).2 (k0_pay18 v12 v22)
  (k0_pay28 v12 lanes v162 (k0_pay25 v12), k0_pay29 v12 v22 lanes v169 (k0_pay26 v12 v22))

/-- What the body stores into the counts window. -/
def out2 (v0 : Vec F S2048x512 .f32) (v1 : Vec F S2048x1 .i32) : Vec F S1x8x128 .f32 :=
  let v12 := k0_pay4 v0 v1
  k0_pay1 (k0_pay31 v12 lanes (tile6 v0 v1).1) (k0_pay35 lanes) (Scalar.ofBits .f32 0x00000000#32) (k0_pay36 v12)

/-- What the body stores into the cross-entropy sums window. -/
def out3 (v0 : Vec F S2048x512 .f32) (v1 : Vec F S2048x1 .i32) : Vec F S1x8x128 .f32 :=
  let v12 := k0_pay4 v0 v1
  let v22 := k0_pay5 v0 v1
  k0_pay2 lanes (k0_pay32 v12 v22 lanes (tile6 v0 v1).2) (k0_pay34 v12 v22)

end Cert.KernelIdeal.Hand

end
-- ==== Proof.KFrameI.lean ====
/-
  The frame of the program: @main is one host operation (the labels reshaped to a column), the pipelined region over
  64 grid points, and 54 host operations after it. At every grid point the body loads its two input blocks whole,
  computes, and stores each of its two output tiles whole; it keeps nothing between points. So the run terminates
  without a fault, each output array ends at what the points wrote back block by block, and the two argument arrays
  end as they were launched: no host operation and no window writes them.
-/
import proofs.«406612_j38671885533680_3_alg».proof.Proof.Gen.KernelIdeal.Launch
import proofs.«406612_j38671885533680_3_alg».proof.Proof.Gen.KernelIdeal.Skeleton
import proofs.«406612_j38671885533680_3_alg».proof.Proof.Gen.KernelIdeal.Points
import proofs.«406612_j38671885533680_3_alg».proof.Proof.KOutI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the one host operation before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, in their three stretches. -/
abbrev tailOps : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main reduces to the region continued by the later host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later host operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No later host operation writes one of the four arrays the region's windows stage: each writes only its own
    result buffer, and none of those is `pred`, the label column or one of the two result arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, StableHlo.nary_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.unary, StableHlo.TRef.ternary, StableHlo.unary_writes, StableHlo.ternary_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, Finset.mem_singleton] <;> exact StableHlo.devRef_ne_of_ne (by decide)

/-- The host operation before the region does not write `pred`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))
/-- Nor the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne (by decide)))

/-- No host operation writes `b` when `b` is none of their result buffers. -/
theorem tail_not_writes (b : Ref sig .tc)
    (h1 : (hostOps1 : List (HloOp τ sig (Elt F))).Forall fun op => Proc.devRef .tc b ∉ op.writes)
    (h2 : (hostOps1_1 : List (HloOp τ sig (Elt F))).Forall fun op => Proc.devRef .tc b ∉ op.writes)
    (h3 : (hostOps1_2 : List (HloOp τ sig (Elt F))).Forall fun op => Proc.devRef .tc b ∉ op.writes) :
    ∀ op ∈ (List.flatten (tailOps : List (List (HloOp τ sig (Elt F))))), Proc.devRef .tc b ∉ op.writes := by
  intro op hop
  simp only [tailOps, List.flatten_cons, List.flatten_nil, List.append_nil, List.mem_append] at hop
  rcases hop with hop | hop | hop
  · exact (List.forall_iff_forall_mem.mp h1) op hop
  · exact (List.forall_iff_forall_mem.mp h2) op hop
  · exact (List.forall_iff_forall_mem.mp h3) op hop

theorem tail_keeps_arg0 : ∀ op ∈ (List.flatten (tailOps : List (List (HloOp τ sig (Elt F))))), Proc.devRef .tc main_arg0 ∉ op.writes :=
  tail_not_writes main_arg0
    (by simp only [hostOps1, List.Forall, StableHlo.nullary_writes, StableHlo.unary_writes, StableHlo.binary_writes, StableHlo.ternary_writes, StableHlo.reshape_writes, StableHlo.nary_writes, Finset.mem_singleton]
        repeat' apply And.intro
        all_goals exact StableHlo.devRef_ne_of_ne (by decide))
    (by simp only [hostOps1_1, List.Forall, StableHlo.TRef.unary, StableHlo.TRef.ternary, StableHlo.unary_writes, StableHlo.ternary_writes, Finset.mem_singleton]
        repeat' apply And.intro
        all_goals exact StableHlo.devRef_ne_of_ne (by decide))
    (by simp only [hostOps1_2, List.Forall, StableHlo.nullary_writes, StableHlo.unary_writes, StableHlo.binary_writes, Finset.mem_singleton]
        repeat' apply And.intro
        all_goals exact StableHlo.devRef_ne_of_ne (by decide))

theorem tail_keeps_arg1 : ∀ op ∈ (List.flatten (tailOps : List (List (HloOp τ sig (Elt F))))), Proc.devRef .tc main_arg1 ∉ op.writes :=
  tail_not_writes main_arg1
    (by simp only [hostOps1, List.Forall, StableHlo.nullary_writes, StableHlo.unary_writes, StableHlo.binary_writes, StableHlo.ternary_writes, StableHlo.reshape_writes, StableHlo.nary_writes, Finset.mem_singleton]
        repeat' apply And.intro
        all_goals exact StableHlo.devRef_ne_of_ne (by decide))
    (by simp only [hostOps1_1, List.Forall, StableHlo.TRef.unary, StableHlo.TRef.ternary, StableHlo.unary_writes, StableHlo.ternary_writes, Finset.mem_singleton]
        repeat' apply And.intro
        all_goals exact StableHlo.devRef_ne_of_ne (by decide))
    (by simp only [hostOps1_2, List.Forall, StableHlo.nullary_writes, StableHlo.unary_writes, StableHlo.binary_writes, Finset.mem_singleton]
        repeat' apply And.intro
        all_goals exact StableHlo.devRef_ne_of_ne (by decide))

/-- The labels end as launched: no window stages them (the region stages their reshaped copy), the host operation
    before the region does not write them, and no later operation does. -/
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_keeps_arg1 (F := F)),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rIn0 : Rect S2048x512 := Rect.unit (s := S2048x512) ![0, 0] S2048x512.size inb_S2048x512_S2048x512_0_0
abbrev rIn1 : Rect S2048x1 := Rect.unit (s := S2048x1) ![0, 0] S2048x1.size inb_S2048x1_S2048x1_0_0
abbrev rOut : Rect S1x8x128 := Rect.unit (s := S1x8x128) ![0, 0, 0] S1x8x128.size inb_S1x8x128_S1x8x128_0_0_0

/-- The counts window's buffer after the body: its one whole store, over the two loaded blocks. -/
def buf2 (x0 : Vec F S2048x512 .f32) (x1 : Vec F S2048x1 .i32) : Vec F S1x8x128 .f32 :=
  View.canon [⟨rOut, out2 (View.ld x0 rIn0) (View.ld x1 rIn1)⟩]
/-- The sums window's buffer after the body. -/
def buf3 (x0 : Vec F S2048x512 .f32) (x1 : Vec F S2048x1 .i32) : Vec F S1x8x128 .f32 :=
  View.canon [⟨rOut, out3 (View.ld x0 rIn0) (View.ld x1 rIn1)⟩]

/-- The one store covers the buffer. -/
theorem coverOut (p0 : Vec F S1x8x128 .f32) (y : S1x8x128.Idx) :
    ∃ pc ∈ ([⟨rOut, p0⟩] : List (View.Piece (Elt F) S1x8x128 .f32)), y ∈ pc.1.set :=
  View.cover_of_tiled [⟨rOut, p0⟩] S1x8x128.size (by rfl) y

/-! ## The body's triple -/

set_option maxHeartbeats 4000000 in
/-- The body on whole staging buffers, the inputs' at read contents and the outputs' at anything, runs to the
    continuation holding the inputs' as they were and each output's at its one store. -/
theorem sound_kernel (c : Dev nD) (E : Set ℕ) (i : grid0.Coords)
    (arg1 : Memref sig .tc .vmem S2048x512 .f32) (harg1 : arg1.IsWhole) (arg2 : Memref sig .tc .vmem S2048x1 .i32) (harg2 : arg2.IsWhole)
    (arg3 : Memref sig .tc .vmem S1x8x128 .f32) (harg3 : arg3.IsWhole) (arg4 : Memref sig .tc .vmem S1x8x128 .f32) (harg4 : arg4.IsWhole)
    (x0 : Vec F S2048x512 .f32) (x1 : Vec F S2048x1 .i32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (buf2 x0 x1) ∗ owns (c : Thread nD τ) arg4 fullShare (buf3 x0 x1)) -∗ K ⟨⟩))
      ⊢ wp frame (wpE (defs₀ (F := F)) Variants.none c none) E (cc0__fused_kernel i arg1 harg1 arg2 harg2 arg3 harg3 arg4 harg4) K := by
  simp only [cc0__fused_kernel_eq_skeleton]; unfold cc0__fused_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    exact View.read_writes_eq_canon _ _ _ (coverOut _)
  iexists _; isplitr
  swap; · iexact H3
  ipureintro
  sl_unfold_words
  exact View.read_writes_eq_canon _ _ _ (coverOut _)

/-! ## The pipeline's proof data -/

/-- The proof data of the one pipeline on core `c`: the arrays as the region finds them; after the body at point `t`
    each input's buffer at its block and each output's at its one store over the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => buf2 (iblk m c 0 t) (iblk m c 1 t)
    | ⟨3, _⟩ => buf3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = buf2 (iblk m c 0 t) (iblk m c 1 t) := by dsimp only [dats]
theorem after0_3 (c : Dev nD) (t : Fin cfg0.N) : (dats m 0 c).after 3 t = buf3 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    every array of the pipeline at what the proof data computes and every other unscoped buffer as the host
    operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run with the three buffers a value claim speaks of named: the result is what the host operations after the
    region compute from the region's arrays, and the two arguments end as launched. -/
theorem run_named : θ_run defs (onTc (τ := τ) (main (F := F))) ⟨m, fun _ => 0, ρ⟩ (fun r => ∀ c : Dev nD,
      r.2.mem ((c.tc : Thread nD τ).loc main_v39) = Pipeline.afterTail₀ cfgs (dats m) 0 (V0 m) tailOps c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v39 (Pipeline.mem_restRefs_of main_v39 (by decide) (by decide)),
     (((h c).1 0).trans ((dats m 0 c).arrAt_in 0 rfl _)).trans ((A_eq m c 0).trans (V_main_arg0 m c)),
     ((h c).2 main_arg1 (Pipeline.mem_restRefs_of main_arg1 (by decide) (by decide))).trans (W_main_arg1 m (dats m) c)⟩)
    (run_main m ρ)

/-- The frame: the run terminates without a fault and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Hand

end
-- ==== Proof.Spec.lean ====
/-
  The mathematics both programs compute, stated once over an abstract finite index set and over the programs' own
  index set. Every element of the 131072 x 512 array `pred` gets a gradient magnitude g = |sigmoid x - onehot| scaled
  by ten (`sc`) and a cross-entropy term (`bc`). The elements are sorted into ten bins by floor (10 g) capped at 9; a
  bin's weight is tot / (its count) when it is not empty, divided by the number of non-empty bins, and the loss is the
  weighted sum of the cross-entropy terms over tot. One program sums bin by bin through CUMULATIVE counts and sums
  (elements with 10 g < k, k = 1 .. 9, adjacent differences), the other element by element through the bin index.
-/
import Idealize.ShloMosaic.PureOps.Ideal
import Idealize.ShloMosaic.Lib.ValueIdx

noncomputable section

open scoped BigOperators

namespace Cert.Spec

open Idealize.ShloMosaic

/-! ## One element -/

/-- The one-hot entry of class `q` for the label word `tg`. -/
def hot (tg : BitVec 32) (q : ℕ) : EReal := if tg = BitVec.ofNat 32 q then 1 else 0

/-- Ten times the gradient magnitude |sigmoid x - h|. -/
def sc (x h : EReal) : EReal := max (Ideal.logistic x - h) (-(Ideal.logistic x - h)) * ((10 : ℝ) : EReal)

/-- The cross-entropy term max(x, 0) - x h + log(1 + exp(-|x|)). -/
def bc (x h : EReal) : EReal := max x 0 - x * h + Ideal.log1p (Ideal.exp (-(max x (-x))))

/-- The bin of a scaled magnitude: its integer part (toward zero, as the float-to-int32 conversion takes it), capped at 9. -/
def binOf (s : EReal) : ℕ := min (Ideal.toIntClamped (-(2147483648 : ℤ)) 2147483647 s).toNat 9

theorem binOf_lt (s : EReal) : binOf s < 10 := by
  unfold binOf; omega

/-! ## Sums over a finite index set -/

section sums
variable {ι : Type} [Fintype ι]

/-- How many elements have scaled magnitude below `k`, as an extended real. -/
def cntLt (s : ι → EReal) (k : ℕ) : EReal := ∑ i, if s i < ((k : ℝ) : EReal) then (1 : EReal) else 0
/-- The cross-entropy terms of those elements, summed. -/
def sumLt (s b : ι → EReal) (k : ℕ) : EReal := ∑ i, (if s i < ((k : ℝ) : EReal) then (1 : EReal) else 0) * b i
/-- All cross-entropy terms, summed. -/
def sumAll (b : ι → EReal) : EReal := ∑ i, b i

/-- The number of elements, 2^26 here. -/
def tot : EReal := ((67108864 : ℝ) : EReal)

/-- Cumulative counts at the eleven edges 0 .. 10: nothing below 0, everything below 10. -/
def cumC (s : ι → EReal) (k : Fin 11) : EReal := if k.val = 0 then 0 else if k.val = 10 then tot else cntLt s k.val
/-- Cumulative cross-entropy sums at the eleven edges. -/
def cumB (s b : ι → EReal) (k : Fin 11) : EReal := if k.val = 0 then 0 else if k.val = 10 then sumAll b else sumLt s b k.val

/-- A bin's weight from the ten counts: tot / max(count, 1) when the bin is not empty, else 0. -/
def wBin (cnt : Fin 10 → EReal) (j : Fin 10) : EReal := if 0 < cnt j then Ideal.div tot (max (cnt j) 1) else 0
/-- The number of non-empty bins, at least 1. -/
def nBins (cnt : Fin 10 → EReal) : EReal := max (∑ j, if 0 < cnt j then (1 : EReal) else 0) 1
/-- The weight divided by the number of non-empty bins. -/
def wNorm (cnt : Fin 10 → EReal) (j : Fin 10) : EReal := Ideal.div (wBin cnt j) (nBins cnt)

/-- The loss from cumulative edges: adjacent differences give per-bin counts and sums. -/
def lossCum (C B : Fin 11 → EReal) : EReal :=
  Ideal.div (∑ j : Fin 10, wNorm (fun j => C j.succ - C j.castSucc) j * (B j.succ - B j.castSucc)) tot

/-- The count of bin `j`, element by element. -/
def cntBin (s : ι → EReal) (j : Fin 10) : EReal := ∑ i, if binOf (s i) = j.val then (1 : EReal) else 0
/-- The loss element by element: each term weighted by its own bin's weight. -/
def lossElt (s b : ι → EReal) : EReal :=
  Ideal.div (∑ i, wNorm (cntBin s) ⟨binOf (s i), binOf_lt _⟩ * b i) tot

end sums

/-! ## The programs' index set -/

abbrev SX : Shape := ⟨2, ![131072, 512]⟩
abbrev ST : Shape := ⟨1, ![131072]⟩

/-- The label word of the row an element lies in. -/
def rowOf (i : SX.Idx) : ST.Idx := fun a => match a with
  | ⟨0, _⟩ => ⟨(i 0).val, (i 0).isLt⟩

/-- The one-hot entry at an element. -/
def hAt (tg : ST.Idx → BitVec 32) (i : SX.Idx) : EReal := hot (tg (rowOf i)) (i 1).val
/-- The scaled magnitude at an element. -/
def sAt (x : SX.Idx → EReal) (tg : ST.Idx → BitVec 32) (i : SX.Idx) : EReal := sc (x i) (hAt tg i)
/-- The cross-entropy term at an element. -/
def bAt (x : SX.Idx → EReal) (tg : ST.Idx → BitVec 32) (i : SX.Idx) : EReal := bc (x i) (hAt tg i)

/-- What the kernel's program returns. -/
def lossK (x : SX.Idx → EReal) (tg : ST.Idx → BitVec 32) : EReal := lossCum (cumC (sAt x tg)) (cumB (sAt x tg) (bAt x tg))
/-- What the reference returns. -/
def lossR (x : SX.Idx → EReal) (tg : ST.Idx → BitVec 32) : EReal := lossElt (sAt x tg) (bAt x tg)

end Cert.Spec

end
-- ==== Proof.KFinal.lean ====
/-
  The two result arrays of the region after the run, read entry by entry: block t of each is what grid point t wrote
  back, the body's stored tile over block t of `pred` and block t of the label column; and those two blocks read at
  an index are the argument arrays at row t * 2048 + p.

  Every window's block index at point t is (t, 0, …): the blocks of each result array are its 64 slabs [t, t+1) × 8 × 128,
  one per point, so they tile the array and entry (t, r, l) is point t's stored tile at (0, r, l); block t of `pred` is
  rows [2048 t, 2048 (t + 1)), and block t of the label column likewise, the column being the labels reshaped.
-/
import proofs.«406612_j38671885533680_3_alg».proof.Proof.KFrameI
import proofs.«406612_j38671885533680_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- Row `p` of block `t`, as a row of the whole array. -/
abbrev rowAt (t : Fin 64) (p : Fin 2048) : Fin 131072 := ⟨t.val * 2048 + p.val, by omega⟩

/-- Block index `t` as a grid point. -/
def ptOf (t : Fin 64) : Fin cfg0.N := ⟨t.val, by rw [show cfg0.N = 64 from N_0]; exact t.isLt⟩

/-- The counts array after the run, as one function of the region-entry arrays: at (t, r, l) the tile point t stored, at (r, l). -/
def G2 (c : Dev nD) : S64x8x128.Idx → Elt F .f32 := fun i =>
  out2 (iblk m c 0 (ptOf ⟨(i 0).val, (i 0).isLt⟩)) (iblk m c 1 (ptOf ⟨(i 0).val, (i 0).isLt⟩)) (ix3 (0 : Fin 1) ⟨(i 1).val, (i 1).isLt⟩ ⟨(i 2).val, (i 2).isLt⟩)
/-- The sums array after the run. -/
def G3 (c : Dev nD) : S64x8x128.Idx → Elt F .f32 := fun i =>
  out3 (iblk m c 0 (ptOf ⟨(i 0).val, (i 0).isLt⟩)) (iblk m c 1 (ptOf ⟨(i 0).val, (i 0).isLt⟩)) (ix3 (0 : Fin 1) ⟨(i 1).val, (i 1).isLt⟩ ⟨(i 2).val, (i 2).isLt⟩)

theorem zeros2 : (![0, 0] : Fin 2 → Nat) = fun _ => 0 := funext fun a => by fin_cases a <;> rfl
theorem zeros3 : (![0, 0, 0] : Fin 3 → Nat) = fun _ => 0 := funext fun a => by fin_cases a <;> rfl

theorem idx_facts : ∀ t : Fin cfg0.N,
    win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem G2_at (c : Dev nD) (i : S64x8x128.Idx) (t : Fin cfg0.N) (j : S1x8x128.Idx)
    (h0 : (i 0).val = t.val) (h1 : (i 1).val = (j 1).val) (h2 : (i 2).val = (j 2).val) :
    G2 m c i = out2 (iblk m c 0 t) (iblk m c 1 t) j := by
  have ept : ptOf ⟨(i 0).val, (i 0).isLt⟩ = t := Fin.ext h0
  have ej : ix3 (0 : Fin 1) (⟨(i 1).val, (i 1).isLt⟩ : Fin 8) (⟨(i 2).val, (i 2).isLt⟩ : Fin 128) = j := by
    funext a
    match a with
    | ⟨0, _⟩ => apply Fin.ext; show 0 = (j 0).val; have hj : (j 0).val < 1 := (j 0).isLt; omega
    | ⟨1, _⟩ => exact Fin.ext h1
    | ⟨2, _⟩ => exact Fin.ext h2
  unfold G2
  rw [ept, ej]

/-- What point `t` writes back to the counts array is block `t` of `G2`. -/
theorem flushed2_eq (c : Dev nD) (t : Fin cfg0.N) :
    (dats m 0 c).flushed 2 t = ((cfg0.win 2).blk t).view.read (Elt F) (G2 m c) := by
  show (cfg0.win 2).cut (grid0.coords t) ((dats m 0 c).after 2 t) = _
  rw [after0_2]
  unfold buf2
  rw [View.canon_unit_zero zeros3]
  simp only [View.ld_unit_zero (S := S2048x512) zeros2, View.ld_unit_zero (S := S2048x1) zeros2]
  obtain ⟨e0, e1, e2, -⟩ := idx_facts t
  funext j
  show out2 (iblk m c 0 t) (iblk m c 1 t) j = G2 m c (((cfg0.win 2).blk t).view.emb j)
  symm
  apply G2_at
  · show win0_2.index t (0 : Fin 3) * 1 + 1 * (j 0).val = t.val
    have hj : (j 0).val < 1 := (j 0).isLt
    omega
  · show win0_2.index t (1 : Fin 3) * 8 + 1 * (j 1).val = (j 1).val
    omega
  · show win0_2.index t (2 : Fin 3) * 128 + 1 * (j 2).val = (j 2).val
    omega

/-- An index of the counts array is in point `t`'s block iff each coordinate is in the block's range on its axis. -/
theorem mem_blk2 (t : Fin cfg0.N) (i : S64x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v1_0).slice (win0_2.rect t)).set ↔ _
  rw [View.set_slice_whole, Rect.mem_set_unit]
  exact Iff.rfl

/-- Every index of the counts array is in the block of the point its first coordinate names. -/
theorem cover2 (i : S64x8x128.Idx) : ∃ t : Fin cfg0.N, (cfg0.win 2).flush t = true ∧ i ∈ ((cfg0.win 2).blk t).view.set := by
  obtain ⟨t, ht⟩ : ∃ t : Fin cfg0.N, t.val = (i 0).val := ⟨ptOf ⟨(i 0).val, (i 0).isLt⟩, rfl⟩
  refine ⟨t, flush0_2 t, ?_⟩
  rw [mem_blk2]
  obtain ⟨e0, e1, e2, -⟩ := idx_facts t
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8 ≤ (i 1).val ∧ (i 1).val < win0_2.index t (1 : Fin 3) * 8 + 8
    have h1 : (i 1).val < 8 := (i 1).isLt
    omega
  | ⟨2, _⟩ =>
    show win0_2.index t (2 : Fin 3) * 128 ≤ (i 2).val ∧ (i 2).val < win0_2.index t (2 : Fin 3) * 128 + 128
    have h2 : (i 2).val < 128 := (i 2).isLt
    omega

/-- The counts array after the run. -/
theorem final2 (c : Dev nD) : (dats m 0 c).arrAt 2 cfg0.N = G2 m c :=
  (dats m 0 c).arrAt_eq_of_cover 2 (G2 m c) (fun t _ => flushed2_eq m c t) cover2

theorem G3_at (c : Dev nD) (i : S64x8x128.Idx) (t : Fin cfg0.N) (j : S1x8x128.Idx)
    (h0 : (i 0).val = t.val) (h1 : (i 1).val = (j 1).val) (h2 : (i 2).val = (j 2).val) :
    G3 m c i = out3 (iblk m c 0 t) (iblk m c 1 t) j := by
  have ept : ptOf ⟨(i 0).val, (i 0).isLt⟩ = t := Fin.ext h0
  have ej : ix3 (0 : Fin 1) (⟨(i 1).val, (i 1).isLt⟩ : Fin 8) (⟨(i 2).val, (i 2).isLt⟩ : Fin 128) = j := by
    funext a
    match a with
    | ⟨0, _⟩ => apply Fin.ext; show 0 = (j 0).val; have hj : (j 0).val < 1 := (j 0).isLt; omega
    | ⟨1, _⟩ => exact Fin.ext h1
    | ⟨2, _⟩ => exact Fin.ext h2
  unfold G3
  rw [ept, ej]

/-- What point `t` writes back to the sums array is block `t` of `G3`. -/
theorem flushed3_eq (c : Dev nD) (t : Fin cfg0.N) :
    (dats m 0 c).flushed 3 t = ((cfg0.win 3).blk t).view.read (Elt F) (G3 m c) := by
  show (cfg0.win 3).cut (grid0.coords t) ((dats m 0 c).after 3 t) = _
  rw [after0_3]
  unfold buf3
  rw [View.canon_unit_zero zeros3]
  simp only [View.ld_unit_zero (S := S2048x512) zeros2, View.ld_unit_zero (S := S2048x1) zeros2]
  obtain ⟨-, -, -, e0, e1, e2, -⟩ := idx_facts t
  funext j
  show out3 (iblk m c 0 t) (iblk m c 1 t) j = G3 m c (((cfg0.win 3).blk t).view.emb j)
  symm
  apply G3_at
  · show win0_3.index t (0 : Fin 3) * 1 + 1 * (j 0).val = t.val
    have hj : (j 0).val < 1 := (j 0).isLt
    omega
  · show win0_3.index t (1 : Fin 3) * 8 + 1 * (j 1).val = (j 1).val
    omega
  · show win0_3.index t (2 : Fin 3) * 128 + 1 * (j 2).val = (j 2).val
    omega

/-- An index of the sums array is in point `t`'s block iff each coordinate is in the block's range on its axis. -/
theorem mem_blk3 (t : Fin cfg0.N) (i : S64x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v1_1).slice (win0_3.rect t)).set ↔ _
  rw [View.set_slice_whole, Rect.mem_set_unit]
  exact Iff.rfl

/-- Every index of the sums array is in the block of the point its first coordinate names. -/
theorem cover3 (i : S64x8x128.Idx) : ∃ t : Fin cfg0.N, (cfg0.win 3).flush t = true ∧ i ∈ ((cfg0.win 3).blk t).view.set := by
  obtain ⟨t, ht⟩ : ∃ t : Fin cfg0.N, t.val = (i 0).val := ⟨ptOf ⟨(i 0).val, (i 0).isLt⟩, rfl⟩
  refine ⟨t, flush0_3 t, ?_⟩
  rw [mem_blk3]
  obtain ⟨-, -, -, e0, e1, e2, -⟩ := idx_facts t
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 8 ≤ (i 1).val ∧ (i 1).val < win0_3.index t (1 : Fin 3) * 8 + 8
    have h1 : (i 1).val < 8 := (i 1).isLt
    omega
  | ⟨2, _⟩ =>
    show win0_3.index t (2 : Fin 3) * 128 ≤ (i 2).val ∧ (i 2).val < win0_3.index t (2 : Fin 3) * 128 + 128
    have h2 : (i 2).val < 128 := (i 2).isLt
    omega

/-- The sums array after the run. -/
theorem final3 (c : Dev nD) : (dats m 0 c).arrAt 3 cfg0.N = G3 m c :=
  (dats m 0 c).arrAt_eq_of_cover 3 (G3 m c) (fun t _ => flushed3_eq m c t) cover3

/-- Block t of `pred` at (p, q) is `pred` at row t * 2048 + p. -/
theorem iblk0_apply (c : Dev nD) (t : Fin 64) (p : Fin 2048) (q : Fin 512) :
    (iblk m c 0 (ptOf t) : Vec F S2048x512 .f32) (ix2 p q) = m ((c.tc : Thread nD τ).loc main_arg0) (ix2 (rowAt t p) q) := by
  obtain ⟨-, -, -, -, -, -, e0, e1, -⟩ := idx_facts (ptOf t)
  have hv : (ptOf t).val = t.val := rfl
  unfold iblk
  rw [View.read_apply]
  have hemb : ((cfg0.win 0).blk (ptOf t)).view.emb (ix2 p q) = ix2 (rowAt t p) q := by
    funext a; apply Fin.ext
    match a with
    | ⟨0, _⟩ => show win0_0.index (ptOf t) (0 : Fin 2) * 2048 + 1 * p.val = t.val * 2048 + p.val; omega
    | ⟨1, _⟩ => show win0_0.index (ptOf t) (1 : Fin 2) * 512 + 1 * q.val = q.val; omega
  rw [hemb]
  show V m c main_arg0 (ix2 (rowAt t p) q) = _
  rw [V_main_arg0]

/-- The label column as the region finds it: the labels, reshaped. -/
theorem V_main_v0 (c : Dev nD) :
    (V m c main_v0 : S131072x1.Idx → Elt F .i32) = shapeCast S131072x1 (m ((c.tc : Thread nD τ).loc main_arg1)) shapeCasts_S131072_S131072x1 := by
  dsimp only [V, V0, hostOps0]
  simp only [List.flatten_cons, List.flatten_nil, List.append_nil]
  after_results
  rfl

/-- Block t of the label column at (p, 0) is the label of row t * 2048 + p. -/
theorem iblk1_apply (c : Dev nD) (t : Fin 64) (p : Fin 2048) :
    (iblk m c 1 (ptOf t) : Vec F S2048x1 .i32) (ix2 p (0 : Fin 1)) = m ((c.tc : Thread nD τ).loc main_arg1) (ix1 (rowAt t p)) := by
  obtain ⟨-, -, -, -, -, -, -, -, e0, e1⟩ := idx_facts (ptOf t)
  have hv : (ptOf t).val = t.val := rfl
  unfold iblk
  rw [View.read_apply]
  have hemb : ((cfg0.win 1).blk (ptOf t)).view.emb (ix2 p (0 : Fin 1)) = ix2 (rowAt t p) (0 : Fin 1) := by
    funext a; apply Fin.ext
    match a with
    | ⟨0, _⟩ => show win0_1.index (ptOf t) (0 : Fin 2) * 2048 + 1 * p.val = t.val * 2048 + p.val; omega
    | ⟨1, _⟩ => show win0_1.index (ptOf t) (1 : Fin 2) * 1 + 1 * 0 = 0; omega
  rw [hemb]
  show V m c main_v0 (ix2 (rowAt t p) (0 : Fin 1)) = _
  rw [V_main_v0]
  refine shapeCast_apply _ _ _ (ix1 (rowAt t p)) ?_
  rw [Shape.rowMajor_val_one, Shape.rowMajor_val_two]
  show t.val * 2048 + p.val = (t.val * 2048 + p.val) * 1 + 0
  omega

end Cert.KernelIdeal.Hand

end
-- ==== Proof.KBlock.lean ====
/-
  What the body stores, read at an index at the extended reals: lane k (1 ≤ k ≤ 9) of the counts tile holds the number
  of elements of the block whose scaled magnitude is below k; lane k of the sums tile holds the sum of their
  cross-entropy terms, and lane 0 the block's whole cross-entropy sum. The three statements close the file; before
  them, each value the body computes is read at an index: the one-hot entry, the scaled magnitude and the
  cross-entropy term of an element; the nine threshold indicators; a block total as a double sum; a value laid on one
  lane of the tile; and the two tiles after each group of updates as left-nested sums of nine lane contributions.
-/
import proofs.«406612_j38671885533680_3_alg».proof.Proof.KOutI
import proofs.«406612_j38671885533680_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- The scaled magnitude of element (p, q) of a block: the logit `x0 (p, q)` against the one-hot entry of class `q`
    for row `p`'s label word. -/
def sBlk (x0 : Vec Ideal S2048x512 .f32) (x1 : Vec Ideal S2048x1 .i32) (p : Fin 2048) (q : Fin 512) : EReal :=
  Cert.Spec.sc (x0 (ix2 p q)) (Cert.Spec.hot (x1 (ix2 p (0 : Fin 1))) q.val)

/-- Its cross-entropy term. -/
def bBlk (x0 : Vec Ideal S2048x512 .f32) (x1 : Vec Ideal S2048x1 .i32) (p : Fin 2048) (q : Fin 512) : EReal :=
  Cert.Spec.bc (x0 (ix2 p q)) (Cert.Spec.hot (x1 (ix2 p (0 : Fin 1))) q.val)

namespace KBlock

/-! ## The float constants the body spells, as the extended reals they denote -/

theorem c10 : Ideal.ofBits .f32 0x41200000#32 = ((10 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num
theorem c7 : Ideal.ofBits .f32 0x40E00000#32 = ((7 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c9 : Ideal.ofBits .f32 0x41100000#32 = ((9 : ℝ) : EReal) := by
  simp [Ideal.ofBits, Ideal.ieee, -EReal.coe_mul]; norm_num

/-! ## The elementwise values at an index -/

/-- A column [a, 1] broadcast along the lanes to [a, b] reads, at (p, q), the column at (p, 0). -/
theorem broadcastTo_a1_ab_apply {α : Type} {a b : ℕ} (hb : a ≠ 1) (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    rw [if_neg hb]
  | ⟨1, _⟩ => rfl

/-- The one-hot mask as a float: 1 on the label's lane, 0 elsewhere. -/
theorem pay3_apply (x1 : Vec Ideal S2048x1 .i32) (p : Fin 2048) (q : Fin 512) :
    k0_pay3 (F := Ideal) x1 (ix2 p q) = Cert.Spec.hot (x1 (ix2 p (0 : Fin 1))) q.val := by
  unfold k0_pay3
  show ((((IntOp.cmpi .eq (iota .tc S2048x512 32 [1] iota_S2048x512_d1_w32 (ix2 p q))
      (broadcastTo S2048x512 (shapeCast S2048x1 x1 shapeCasts_S2048x1_S2048x1) broadcasts_S2048x1_S2048x512 (ix2 p q))).setWidth 32).toInt : ℝ) : EReal) = _
  rw [iota_single_apply, shapeCast_self, broadcastTo_a1_ab_apply (by decide)]
  show ((((BitVec.ofBool (BitVec.ofNat 32 q.val == x1 (ix2 p (0 : Fin 1)))).setWidth 32).toInt : ℝ) : EReal) = _
  unfold Cert.Spec.hot
  by_cases h : x1 (ix2 p (0 : Fin 1)) = BitVec.ofNat 32 q.val
  · rw [if_pos h, h]; simp
  · rw [if_neg h]
    have : (BitVec.ofNat 32 q.val == x1 (ix2 p (0 : Fin 1))) = false := by
      rw [beq_eq_false_iff_ne]; exact fun e => h e.symm
    rw [this]; simp

/-- The scaled magnitude 10 |sigmoid x - onehot| at an index. -/
theorem pay4_apply (x0 : Vec Ideal S2048x512 .f32) (x1 : Vec Ideal S2048x1 .i32) (p : Fin 2048) (q : Fin 512) :
    k0_pay4 (F := Ideal) x0 x1 (ix2 p q) = sBlk x0 x1 p q := by
  unfold k0_pay4
  show max (Ideal.logistic (x0 (ix2 p q)) - k0_pay3 (F := Ideal) x1 (ix2 p q))
      (-(Ideal.logistic (x0 (ix2 p q)) - k0_pay3 (F := Ideal) x1 (ix2 p q))) * Ideal.ofBits .f32 0x41200000#32 = _
  rw [pay3_apply, c10]
  rfl

/-- The cross-entropy term max(x, 0) - x onehot + log(1 + exp(-|x|)) at an index. -/
theorem pay5_apply (x0 : Vec Ideal S2048x512 .f32) (x1 : Vec Ideal S2048x1 .i32) (p : Fin 2048) (q : Fin 512) :
    k0_pay5 (F := Ideal) x0 x1 (ix2 p q) = bBlk x0 x1 p q := by
  unfold k0_pay5
  show max (x0 (ix2 p q)) (Ideal.ofBits .f32 0x00000000#32) - x0 (ix2 p q) * k0_pay3 (F := Ideal) x1 (ix2 p q)
      + Ideal.log1p (Ideal.exp (Ideal.ofBits .f32 0x00000000#32 - max (x0 (ix2 p q)) (-(x0 (ix2 p q))))) = _
  rw [pay3_apply, Ideal.ofBits_zero_f32, zero_sub]
  rfl

/-! ## The threshold masks -/

/-- The indicator of a scaled magnitude below the threshold k, as an extended real. -/
def ind (s : EReal) (k : ℕ) : EReal := if s < ((k : ℝ) : EReal) then 1 else 0

/-- A compare-below-a-constant widened to a word and converted to a float is the indicator. -/
theorem mask_apply (v12 : FVec Ideal S2048x512 .f32) (c : BitVec 32) (k : ℕ)
    (hc : Ideal.ofBits .f32 c = ((k : ℝ) : EReal)) (i : S2048x512.Idx) :
    (sitofp .f32 (extui 32 (cmpf .olt v12 (broadcast S2048x512 (Scalar.ofBits (F := Ideal) .f32 c))) natLt_1_32)
      : FVec Ideal S2048x512 .f32) i = ind (v12 i) k := by
  show ((((BitVec.ofBool (decide (v12 i < Ideal.ofBits .f32 c))).setWidth 32).toInt : ℝ) : EReal) = _
  rw [hc]
  unfold ind
  by_cases h : v12 i < ((k : ℝ) : EReal)
  · rw [if_pos h, decide_eq_true h]; simp
  · rw [if_neg h, decide_eq_false h]; simp

theorem pay8_apply (x0 : Vec Ideal S2048x512 .f32) (x1 : Vec Ideal S2048x1 .i32) (i : S2048x512.Idx) :
    k0_pay8 (F := Ideal) x0 x1 i = ind (k0_pay4 (F := Ideal) x0 x1 i) 1 :=
  mask_apply (k0_pay4 (F := Ideal) x0 x1) _ 1 (by rw [c1]; norm_num) i
theorem pay11_apply (v12 : FVec Ideal S2048x512 .f32) (i : S2048x512.Idx) : k0_pay11 v12 i = ind (v12 i) 2 :=
  mask_apply v12 _ 2 (by rw [c2]; norm_num) i
theorem pay14_apply (v12 : FVec Ideal S2048x512 .f32) (i : S2048x512.Idx) : k0_pay14 v12 i = ind (v12 i) 3 :=
  mask_apply v12 _ 3 (by rw [c3]; norm_num) i
theorem pay17_apply (v12 : FVec Ideal S2048x512 .f32) (i : S2048x512.Idx) : k0_pay17 v12 i = ind (v12 i) 4 :=
  mask_apply v12 _ 4 (by rw [c4]; norm_num) i
theorem pay21_apply (v12 : FVec Ideal S2048x512 .f32) (i : S2048x512.Idx) : k0_pay21 v12 i = ind (v12 i) 5 :=
  mask_apply v12 _ 5 (by rw [c5]; norm_num) i
theorem pay24_apply (v12 : FVec Ideal S2048x512 .f32) (i : S2048x512.Idx) : k0_pay24 v12 i = ind (v12 i) 6 :=
  mask_apply v12 _ 6 (by rw [c6]; norm_num) i
theorem pay27_apply (v12 : FVec Ideal S2048x512 .f32) (i : S2048x512.Idx) : k0_pay27 v12 i = ind (v12 i) 7 :=
  mask_apply v12 _ 7 (by rw [c7]; norm_num) i
theorem pay30_apply (v12 : FVec Ideal S2048x512 .f32) (i : S2048x512.Idx) : k0_pay30 v12 i = ind (v12 i) 8 :=
  mask_apply v12 _ 8 (by rw [c8]; norm_num) i
theorem pay33_apply (v12 : FVec Ideal S2048x512 .f32) (i : S2048x512.Idx) : k0_pay33 v12 i = ind (v12 i) 9 :=
  mask_apply v12 _ 9 (by rw [c9]; norm_num) i

/-! ## A block total -/

/-- The sum over the lanes, then over the rows, of a 2048 x 512 array, as the 1 x 1 value the body makes of it. -/
def total {F : FTy → Type} [FloatOps F] (v : FVec F S2048x512 .f32) : FVec F S1x1 .f32 :=
  shapeCast S1x1
    (multiReduction .add [0] S1
      (shapeCast S2048x1 (multiReduction .add [1] S2048 v 0x00000000#32 reduces_S2048x512_S2048 (.inl rfl) rfl)
        shapeCasts_S2048_S2048x1)
      0x00000000#32 reduces_S2048x1_S1 (.inl rfl) rfl)
    shapeCasts_S1_S1x1

/-- A vector [a] cast to a column [a, 1] reads, at (p, u), the vector at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

theorem total_apply (v : FVec Ideal S2048x512 .f32) :
    total v (ix2 (0 : Fin 1) (0 : Fin 1)) = ∑ p : Fin 2048, ∑ q : Fin 512, v (ix2 p q) := by
  unfold total
  rw [shapeCast_a_1a_apply]
  refine (Ideal.multiReduction_add_single _ 0x00000000#32 reduces_S2048x1_S1 (.inl rfl) rfl (ix1 (0 : Fin 1))).trans ?_
  show ∑ p : Fin 2048, _ = _
  refine Finset.sum_congr rfl fun p _ => ?_
  have e1 : (reduces_S2048x1_S1 : S2048x1.Reduces [0] S1).lift (ix1 (0 : Fin 1)) p = ix2 p (0 : Fin 1) :=
    funext fun a => Fin.ext (by match a with | ⟨0, _⟩ => rfl | ⟨1, _⟩ => rfl)
  rw [e1, shapeCast_a_a1_apply]
  refine (Ideal.multiReduction_add_single v 0x00000000#32 reduces_S2048x512_S2048 (.inl rfl) rfl (ix1 p)).trans ?_
  show ∑ q : Fin 512, _ = _
  refine Finset.sum_congr rfl fun q _ => ?_
  exact congrArg v (funext fun a => Fin.ext (by match a with | ⟨0, _⟩ => rfl | ⟨1, _⟩ => rfl))

/-! ## A value laid on one lane of the tile -/

/-- The tile holding the 1 x 1 value u on lane c (every sublane) and zero on every other lane. -/
def laneSel (c : BitVec 32) (u : FVec Ideal S1x1 .f32) : FVec Ideal S8x128 .f32 :=
  select (cmpi .eq lanes (broadcast S8x128 c))
    (broadcastTo S8x128 (shapeCast S1x1 u shapeCasts_S1x1_S1x1) broadcasts_S1x1_S8x128)
    (broadcast S8x128 (Scalar.ofBits (F := Ideal) .f32 0x00000000#32))

theorem lanes_apply (r : Fin 8) (l : Fin 128) : lanes (ix2 r l) = BitVec.ofNat 32 l.val := by
  unfold lanes
  rw [iota_single_apply]

/-- A 1 x 1 value broadcast to the tile reads its one entry everywhere. -/
theorem broadcastTo_11_apply {α : Type} {a b : ℕ} (v : (⟨2, ![1, 1]⟩ : Shape).Idx → α)
    (h : (⟨2, ![1, 1]⟩ : Shape).Broadcasts ⟨2, ![a, b]⟩) (r : Fin a) (l : Fin b) :
    broadcastTo ⟨2, ![a, b]⟩ v h (ix2 r l) = v (ix2 (0 : Fin 1) (0 : Fin 1)) := by
  refine broadcastTo_apply v h (ix2 r l) (ix2 (0 : Fin 1) (0 : Fin 1)) fun ax => ?_
  match ax with
  | ⟨0, _⟩ => rfl
  | ⟨1, _⟩ => rfl

theorem laneSel_apply (c : BitVec 32) (n : ℕ) (hn : n < 128) (hc : c = BitVec.ofNat 32 n) (u : FVec Ideal S1x1 .f32)
    (r : Fin 8) (l : Fin 128) :
    laneSel c u (ix2 r l) = if l.val = n then u (ix2 (0 : Fin 1) (0 : Fin 1)) else 0 := by
  unfold laneSel
  rw [select_apply, broadcastTo_11_apply, shapeCast_self, broadcast_apply]
  show Scalar.select (IntOp.cmpi .eq (lanes (ix2 r l)) c) _ (Ideal.ofBits .f32 0x00000000#32) = _
  rw [lanes_apply, Ideal.ofBits_zero_f32, hc]
  have hl := l.isLt
  by_cases h : l.val = n
  · rw [if_pos h, h]
    show Scalar.select (BitVec.ofBool (BitVec.ofNat 32 n == BitVec.ofNat 32 n)) _ _ = _
    rw [beq_self_eq_true]; rfl
  · rw [if_neg h]
    have hne : (BitVec.ofNat 32 l.val == BitVec.ofNat 32 n) = false := by
      rw [beq_eq_false_iff_ne]
      intro e
      have := congrArg BitVec.toNat e
      simp only [BitVec.toNat_ofNat] at this
      omega
    show Scalar.select (BitVec.ofBool (BitVec.ofNat 32 l.val == BitVec.ofNat 32 n)) _ _ = _
    rw [hne]; rfl

/-! ## The nine counts and sums, and the tiles after each group of updates -/

/-- How many elements of the scaled array lie below k. -/
def cnt (v12 : FVec Ideal S2048x512 .f32) (k : ℕ) : EReal := ∑ p : Fin 2048, ∑ q : Fin 512, ind (v12 (ix2 p q)) k

/-- The terms of those elements, summed. -/
def sm (v12 v22 : FVec Ideal S2048x512 .f32) (k : ℕ) : EReal :=
  ∑ p : Fin 2048, ∑ q : Fin 512, ind (v12 (ix2 p q)) k * v22 (ix2 p q)

/-- What a value laid on lane j contributes at lane l. -/
def lane (l : Fin 128) (j : ℕ) (x : EReal) : EReal := if l.val = j then x else 0

theorem total_mask (m v12 : FVec Ideal S2048x512 .f32) (k : ℕ) (hm : ∀ i, m i = ind (v12 i) k) :
    total m (ix2 (0 : Fin 1) (0 : Fin 1)) = cnt v12 k := by
  rw [total_apply]
  exact Finset.sum_congr rfl fun p _ => Finset.sum_congr rfl fun q _ => hm _

theorem total_mask_mul (m v12 v22 : FVec Ideal S2048x512 .f32) (k : ℕ) (hm : ∀ i, m i = ind (v12 i) k) :
    total (mulf m v22) (ix2 (0 : Fin 1) (0 : Fin 1)) = sm v12 v22 k := by
  rw [total_apply]
  exact Finset.sum_congr rfl fun p _ => Finset.sum_congr rfl fun q _ => by rw [mulf_apply, hm]

theorem sel_eq (c : BitVec 32) (n : ℕ) (hn : n < 128) (hc : c = BitVec.ofNat 32 n) (u : FVec Ideal S1x1 .f32)
    (r : Fin 8) (l : Fin 128) : laneSel c u (ix2 r l) = lane l n (u (ix2 (0 : Fin 1) (0 : Fin 1))) :=
  laneSel_apply c n hn hc u r l

/-! ### The counts tile -/

theorem pay12_apply (v12 : FVec Ideal S2048x512 .f32) (v28 : FVec Ideal S8x128 .f32) (v42 : FVec Ideal S1x1 .f32)
    (r : Fin 8) (l : Fin 128) :
    k0_pay12 v12 lanes v28 v42 (ix2 r l)
      = v28 (ix2 r l) + lane l 1 (v42 (ix2 (0 : Fin 1) (0 : Fin 1))) + lane l 2 (cnt v12 2) := by
  unfold k0_pay12
  show v28 (ix2 r l) + laneSel 1#32 v42 (ix2 r l) + laneSel 2#32 (total (k0_pay11 v12)) (ix2 r l) = _
  rw [sel_eq 1#32 1 (by norm_num) rfl, sel_eq 2#32 2 (by norm_num) rfl, total_mask _ v12 2 (pay11_apply v12)]

theorem pay15_apply (v12 : FVec Ideal S2048x512 .f32) (v81 : FVec Ideal S8x128 .f32) (r : Fin 8) (l : Fin 128) :
    k0_pay15 v12 lanes v81 (ix2 r l) = v81 (ix2 r l) + lane l 3 (cnt v12 3) := by
  unfold k0_pay15
  show v81 (ix2 r l) + laneSel 3#32 (total (k0_pay14 v12)) (ix2 r l) = _
  rw [sel_eq 3#32 3 (by norm_num) rfl, total_mask _ v12 3 (pay14_apply v12)]

theorem pay22_apply (v12 : FVec Ideal S2048x512 .f32) (v108 : FVec Ideal S8x128 .f32) (r : Fin 8) (l : Fin 128) :
    k0_pay22 v12 lanes v108 (k0_pay19 lanes) (Scalar.ofBits (F := Ideal) .f32 0x00000000#32) (k0_pay20 v12) (ix2 r l)
      = v108 (ix2 r l) + lane l 4 (cnt v12 4) + lane l 5 (cnt v12 5) := by
  unfold k0_pay22 k0_pay19 k0_pay20
  show v108 (ix2 r l) + laneSel 4#32 (total (k0_pay17 v12)) (ix2 r l) + laneSel 5#32 (total (k0_pay21 v12)) (ix2 r l) = _
  rw [sel_eq 4#32 4 (by norm_num) rfl, sel_eq 5#32 5 (by norm_num) rfl, total_mask _ v12 4 (pay17_apply v12),
    total_mask _ v12 5 (pay21_apply v12)]

theorem pay28_apply (v12 : FVec Ideal S2048x512 .f32) (v162 : FVec Ideal S8x128 .f32) (r : Fin 8) (l : Fin 128) :
    k0_pay28 v12 lanes v162 (k0_pay25 v12) (ix2 r l)
      = v162 (ix2 r l) + lane l 6 (cnt v12 6) + lane l 7 (cnt v12 7) := by
  unfold k0_pay28 k0_pay25
  show v162 (ix2 r l) + laneSel 6#32 (total (k0_pay24 v12)) (ix2 r l) + laneSel 7#32 (total (k0_pay27 v12)) (ix2 r l) = _
  rw [sel_eq 6#32 6 (by norm_num) rfl, sel_eq 7#32 7 (by norm_num) rfl, total_mask _ v12 6 (pay24_apply v12),
    total_mask _ v12 7 (pay27_apply v12)]

theorem pay31_apply (v12 : FVec Ideal S2048x512 .f32) (v216 : FVec Ideal S8x128 .f32) (r : Fin 8) (l : Fin 128) :
    k0_pay31 v12 lanes v216 (ix2 r l) = v216 (ix2 r l) + lane l 8 (cnt v12 8) := by
  unfold k0_pay31
  show v216 (ix2 r l) + laneSel 8#32 (total (k0_pay30 v12)) (ix2 r l) = _
  rw [sel_eq 8#32 8 (by norm_num) rfl, total_mask _ v12 8 (pay30_apply v12)]

theorem pay1_apply (v12 : FVec Ideal S2048x512 .f32) (v243 : FVec Ideal S8x128 .f32) (r : Fin 8) (l : Fin 128) :
    k0_pay1 v243 (k0_pay35 lanes) (Scalar.ofBits (F := Ideal) .f32 0x00000000#32) (k0_pay36 v12) (ix3 (0 : Fin 1) r l)
      = v243 (ix2 r l) + lane l 9 (cnt v12 9) := by
  unfold k0_pay1 k0_pay35 k0_pay36
  rw [shapeCast_ab_1ab_apply]
  show v243 (ix2 r l) + laneSel 9#32 (total (k0_pay33 v12)) (ix2 r l) = _
  rw [sel_eq 9#32 9 (by norm_num) rfl, total_mask _ v12 9 (pay33_apply v12)]

theorem pay6_apply (i : S8x128.Idx) : k0_pay6 (F := Ideal) i = 0 := by
  unfold k0_pay6
  show Ideal.ofBits .f32 0x00000000#32 = 0
  exact Ideal.ofBits_zero_f32

theorem pay9_apply (x0 : Vec Ideal S2048x512 .f32) (x1 : Vec Ideal S2048x1 .i32) :
    k0_pay9 (F := Ideal) x0 x1 (ix2 (0 : Fin 1) (0 : Fin 1)) = cnt (k0_pay4 (F := Ideal) x0 x1) 1 := by
  unfold k0_pay9
  show total (k0_pay8 (F := Ideal) x0 x1) (ix2 (0 : Fin 1) (0 : Fin 1)) = _
  exact total_mask _ _ 1 (pay8_apply x0 x1)

/-- The counts tile after the first three thresholds. -/
theorem tile3_fst_apply (x0 : Vec Ideal S2048x512 .f32) (x1 : Vec Ideal S2048x1 .i32) (r : Fin 8) (l : Fin 128) :
    (tile3 (F := Ideal) x0 x1).1 (ix2 r l)
      = 0 + lane l 1 (cnt (k0_pay4 (F := Ideal) x0 x1) 1) + lane l 2 (cnt (k0_pay4 (F := Ideal) x0 x1) 2)
          + lane l 3 (cnt (k0_pay4 (F := Ideal) x0 x1) 3) := by
  show k0_pay15 (k0_pay4 (F := Ideal) x0 x1) lanes
      (k0_pay12 (k0_pay4 (F := Ideal) x0 x1) lanes (k0_pay6 (F := Ideal)) (k0_pay9 (F := Ideal) x0 x1)) (ix2 r l) = _
  rw [pay15_apply, pay12_apply, pay6_apply, pay9_apply]

/-- The counts tile after six thresholds. -/
theorem tile6_fst_apply (x0 : Vec Ideal S2048x512 .f32) (x1 : Vec Ideal S2048x1 .i32) (r : Fin 8) (l : Fin 128) :
    (tile6 (F := Ideal) x0 x1).1 (ix2 r l)
      = (tile3 (F := Ideal) x0 x1).1 (ix2 r l)
          + lane l 4 (cnt (k0_pay4 (F := Ideal) x0 x1) 4) + lane l 5 (cnt (k0_pay4 (F := Ideal) x0 x1) 5)
          + lane l 6 (cnt (k0_pay4 (F := Ideal) x0 x1) 6) + lane l 7 (cnt (k0_pay4 (F := Ideal) x0 x1) 7) := by
  show k0_pay28 (k0_pay4 (F := Ideal) x0 x1) lanes
      (k0_pay22 (k0_pay4 (F := Ideal) x0 x1) lanes (tile3 (F := Ideal) x0 x1).1 (k0_pay19 lanes)
        (Scalar.ofBits (F := Ideal) .f32 0x00000000#32) (k0_pay20 (k0_pay4 (F := Ideal) x0 x1)))
      (k0_pay25 (k0_pay4 (F := Ideal) x0 x1)) (ix2 r l) = _
  rw [pay28_apply, pay22_apply]

/-- The counts window's tile: nine counts on lanes 1 to 9. -/
theorem out2_lanes (x0 : Vec Ideal S2048x512 .f32) (x1 : Vec Ideal S2048x1 .i32) (r : Fin 8) (l : Fin 128) :
    out2 (F := Ideal) x0 x1 (ix3 (0 : Fin 1) r l)
      = 0 + lane l 1 (cnt (k0_pay4 (F := Ideal) x0 x1) 1) + lane l 2 (cnt (k0_pay4 (F := Ideal) x0 x1) 2)
          + lane l 3 (cnt (k0_pay4 (F := Ideal) x0 x1) 3) + lane l 4 (cnt (k0_pay4 (F := Ideal) x0 x1) 4)
          + lane l 5 (cnt (k0_pay4 (F := Ideal) x0 x1) 5) + lane l 6 (cnt (k0_pay4 (F := Ideal) x0 x1) 6)
          + lane l 7 (cnt (k0_pay4 (F := Ideal) x0 x1) 7) + lane l 8 (cnt (k0_pay4 (F := Ideal) x0 x1) 8)
          + lane l 9 (cnt (k0_pay4 (F := Ideal) x0 x1) 9) := by
  show k0_pay1 (k0_pay31 (k0_pay4 (F := Ideal) x0 x1) lanes (tile6 (F := Ideal) x0 x1).1) (k0_pay35 lanes)
      (Scalar.ofBits (F := Ideal) .f32 0x00000000#32) (k0_pay36 (k0_pay4 (F := Ideal) x0 x1)) (ix3 (0 : Fin 1) r l) = _
  rw [pay1_apply, pay31_apply, tile6_fst_apply, tile3_fst_apply]

/-- At a lane between 1 and 9 only that lane's value is left of the nine. -/
theorem lane_sum9 (z : EReal) (hz : z = 0) (c : ℕ → EReal) (k : Fin 128) (hk1 : 1 ≤ k.val) (hk9 : k.val ≤ 9) :
    z + lane k 1 (c 1) + lane k 2 (c 2) + lane k 3 (c 3) + lane k 4 (c 4) + lane k 5 (c 5) + lane k 6 (c 6)
      + lane k 7 (c 7) + lane k 8 (c 8) + lane k 9 (c 9) = c k.val := by
  subst hz
  unfold lane
  have h : k.val = 1 ∨ k.val = 2 ∨ k.val = 3 ∨ k.val = 4 ∨ k.val = 5 ∨ k.val = 6 ∨ k.val = 7 ∨ k.val = 8 ∨ k.val = 9 := by
    omega
  rcases h with h | h | h | h | h | h | h | h | h <;> rw [h] <;> simp

theorem cnt_pay4 (x0 : Vec Ideal S2048x512 .f32) (x1 : Vec Ideal S2048x1 .i32) (k : ℕ) :
    cnt (k0_pay4 (F := Ideal) x0 x1) k
      = ∑ p : Fin 2048, ∑ q : Fin 512, if sBlk x0 x1 p q < ((k : ℝ) : EReal) then (1 : EReal) else 0 := by
  unfold cnt ind
  exact Finset.sum_congr rfl fun p _ => Finset.sum_congr rfl fun q _ => by rw [pay4_apply]

/-! ### The sums tile -/

theorem pay7_apply (x0 : Vec Ideal S2048x512 .f32) (x1 : Vec Ideal S2048x1 .i32) (r : Fin 8) (l : Fin 128) :
    k0_pay7 (F := Ideal) x0 x1 (ix2 r l)
      = lane l 0 (∑ p : Fin 2048, ∑ q : Fin 512, k0_pay5 (F := Ideal) x0 x1 (ix2 p q)) := by
  unfold k0_pay7
  show laneSel 0#32 (total (k0_pay5 (F := Ideal) x0 x1)) (ix2 r l) = _
  rw [sel_eq 0#32 0 (by norm_num) rfl, total_apply]

theorem pay13_apply (x0 : Vec Ideal S2048x512 .f32) (x1 : Vec Ideal S2048x1 .i32) (v22 : FVec Ideal S2048x512 .f32)
    (v34 : FVec Ideal S8x128 .f32) (r : Fin 8) (l : Fin 128) :
    k0_pay13 (k0_pay4 (F := Ideal) x0 x1) v22 lanes v34 (mulf (k0_pay8 (F := Ideal) x0 x1) v22) (ix2 r l)
      = v34 (ix2 r l) + lane l 1 (sm (k0_pay4 (F := Ideal) x0 x1) v22 1) + lane l 2 (sm (k0_pay4 (F := Ideal) x0 x1) v22 2) := by
  unfold k0_pay13
  show v34 (ix2 r l) + laneSel 1#32 (total (mulf (k0_pay8 (F := Ideal) x0 x1) v22)) (ix2 r l)
      + laneSel 2#32 (total (mulf (k0_pay11 (k0_pay4 (F := Ideal) x0 x1)) v22)) (ix2 r l) = _
  rw [sel_eq 1#32 1 (by norm_num) rfl, sel_eq 2#32 2 (by norm_num) rfl,
    total_mask_mul _ (k0_pay4 (F := Ideal) x0 x1) v22 1 (pay8_apply x0 x1),
    total_mask_mul _ (k0_pay4 (F := Ideal) x0 x1) v22 2 (pay11_apply _)]

theorem pay16_apply (v12 v22 : FVec Ideal S2048x512 .f32) (v88 : FVec Ideal S8x128 .f32) (r : Fin 8) (l : Fin 128) :
    k0_pay16 v12 v22 lanes v88 (ix2 r l) = v88 (ix2 r l) + lane l 3 (sm v12 v22 3) := by
  unfold k0_pay16
  show v88 (ix2 r l) + laneSel 3#32 (total (mulf (k0_pay14 v12) v22)) (ix2 r l) = _
  rw [sel_eq 3#32 3 (by norm_num) rfl, total_mask_mul _ v12 v22 3 (pay14_apply v12)]

theorem pay23_apply (v12 v22 : FVec Ideal S2048x512 .f32) (v115 : FVec Ideal S8x128 .f32) (r : Fin 8) (l : Fin 128) :
    k0_pay23 v12 v22 lanes v115 (k0_pay18 v12 v22) (ix2 r l)
      = v115 (ix2 r l) + lane l 4 (sm v12 v22 4) + lane l 5 (sm v12 v22 5) := by
  unfold k0_pay23 k0_pay18
  show v115 (ix2 r l) + laneSel 4#32 (total (mulf (k0_pay17 v12) v22)) (ix2 r l)
      + laneSel 5#32 (total (mulf (k0_pay21 v12) v22)) (ix2 r l) = _
  rw [sel_eq 4#32 4 (by norm_num) rfl, sel_eq 5#32 5 (by norm_num) rfl, total_mask_mul _ v12 v22 4 (pay17_apply v12),
    total_mask_mul _ v12 v22 5 (pay21_apply v12)]

theorem pay29_apply (v12 v22 : FVec Ideal S2048x512 .f32) (v169 : FVec Ideal S8x128 .f32) (r : Fin 8) (l : Fin 128) :
    k0_pay29 v12 v22 lanes v169 (k0_pay26 v12 v22) (ix2 r l)
      = v169 (ix2 r l) + lane l 6 (sm v12 v22 6) + lane l 7 (sm v12 v22 7) := by
  unfold k0_pay29 k0_pay26
  show v169 (ix2 r l) + laneSel 6#32 (total (mulf (k0_pay24 v12) v22)) (ix2 r l)
      + laneSel 7#32 (total (mulf (k0_pay27 v12) v22)) (ix2 r l) = _
  rw [sel_eq 6#32 6 (by norm_num) rfl, sel_eq 7#32 7 (by norm_num) rfl, total_mask_mul _ v12 v22 6 (pay24_apply v12),
    total_mask_mul _ v12 v22 7 (pay27_apply v12)]

theorem pay32_apply (v12 v22 : FVec Ideal S2048x512 .f32) (v223 : FVec Ideal S8x128 .f32) (r : Fin 8) (l : Fin 128) :
    k0_pay32 v12 v22 lanes v223 (ix2 r l) = v223 (ix2 r l) + lane l 8 (sm v12 v22 8) := by
  unfold k0_pay32
  show v223 (ix2 r l) + laneSel 8#32 (total (mulf (k0_pay30 v12) v22)) (ix2 r l) = _
  rw [sel_eq 8#32 8 (by norm_num) rfl, total_mask_mul _ v12 v22 8 (pay30_apply v12)]

theorem pay2_apply (v12 v22 : FVec Ideal S2048x512 .f32) (v250 : FVec Ideal S8x128 .f32) (r : Fin 8) (l : Fin 128) :
    k0_pay2 lanes v250 (k0_pay34 v12 v22) (ix3 (0 : Fin 1) r l) = v250 (ix2 r l) + lane l 9 (sm v12 v22 9) := by
  unfold k0_pay2 k0_pay34
  rw [shapeCast_ab_1ab_apply]
  show v250 (ix2 r l) + laneSel 9#32 (total (mulf (k0_pay33 v12) v22)) (ix2 r l) = _
  rw [sel_eq 9#32 9 (by norm_num) rfl, total_mask_mul _ v12 v22 9 (pay33_apply v12)]

/-- The sums tile after the first three thresholds. -/
theorem tile3_snd_apply (x0 : Vec Ideal S2048x512 .f32) (x1 : Vec Ideal S2048x1 .i32) (r : Fin 8) (l : Fin 128) :
    (tile3 (F := Ideal) x0 x1).2 (ix2 r l)
      = lane l 0 (∑ p : Fin 2048, ∑ q : Fin 512, k0_pay5 (F := Ideal) x0 x1 (ix2 p q))
          + lane l 1 (sm (k0_pay4 (F := Ideal) x0 x1) (k0_pay5 (F := Ideal) x0 x1) 1)
          + lane l 2 (sm (k0_pay4 (F := Ideal) x0 x1) (k0_pay5 (F := Ideal) x0 x1) 2)
          + lane l 3 (sm (k0_pay4 (F := Ideal) x0 x1) (k0_pay5 (F := Ideal) x0 x1) 3) := by
  show k0_pay16 (k0_pay4 (F := Ideal) x0 x1) (k0_pay5 (F := Ideal) x0 x1) lanes
      (k0_pay13 (k0_pay4 (F := Ideal) x0 x1) (k0_pay5 (F := Ideal) x0 x1) lanes (k0_pay7 (F := Ideal) x0 x1)
        (mulf (k0_pay8 (F := Ideal) x0 x1) (k0_pay5 (F := Ideal) x0 x1))) (ix2 r l) = _
  rw [pay16_apply, pay13_apply, pay7_apply]

/-- The sums tile after six thresholds. -/
theorem tile6_snd_apply (x0 : Vec Ideal S2048x512 .f32) (x1 : Vec Ideal S2048x1 .i32) (r : Fin 8) (l : Fin 128) :
    (tile6 (F := Ideal) x0 x1).2 (ix2 r l)
      = (tile3 (F := Ideal) x0 x1).2 (ix2 r l)
          + lane l 4 (sm (k0_pay4 (F := Ideal) x0 x1) (k0_pay5 (F := Ideal) x0 x1) 4)
          + lane l 5 (sm (k0_pay4 (F := Ideal) x0 x1) (k0_pay5 (F := Ideal) x0 x1) 5)
          + lane l 6 (sm (k0_pay4 (F := Ideal) x0 x1) (k0_pay5 (F := Ideal) x0 x1) 6)
          + lane l 7 (sm (k0_pay4 (F := Ideal) x0 x1) (k0_pay5 (F := Ideal) x0 x1) 7) := by
  show k0_pay29 (k0_pay4 (F := Ideal) x0 x1) (k0_pay5 (F := Ideal) x0 x1) lanes
      (k0_pay23 (k0_pay4 (F := Ideal) x0 x1) (k0_pay5 (F := Ideal) x0 x1) lanes (tile3 (F := Ideal) x0 x1).2
        (k0_pay18 (k0_pay4 (F := Ideal) x0 x1) (k0_pay5 (F := Ideal) x0 x1)))
      (k0_pay26 (k0_pay4 (F := Ideal) x0 x1) (k0_pay5 (F := Ideal) x0 x1)) (ix2 r l) = _
  rw [pay29_apply, pay23_apply]

/-- The sums window's tile: the whole sum on lane 0 and nine partial sums on lanes 1 to 9. -/
theorem out3_lanes (x0 : Vec Ideal S2048x512 .f32) (x1 : Vec Ideal S2048x1 .i32) (r : Fin 8) (l : Fin 128) :
    out3 (F := Ideal) x0 x1 (ix3 (0 : Fin 1) r l)
      = lane l 0 (∑ p : Fin 2048, ∑ q : Fin 512, k0_pay5 (F := Ideal) x0 x1 (ix2 p q))
          + lane l 1 (sm (k0_pay4 (F := Ideal) x0 x1) (k0_pay5 (F := Ideal) x0 x1) 1)
          + lane l 2 (sm (k0_pay4 (F := Ideal) x0 x1) (k0_pay5 (F := Ideal) x0 x1) 2)
          + lane l 3 (sm (k0_pay4 (F := Ideal) x0 x1) (k0_pay5 (F := Ideal) x0 x1) 3)
          + lane l 4 (sm (k0_pay4 (F := Ideal) x0 x1) (k0_pay5 (F := Ideal) x0 x1) 4)
          + lane l 5 (sm (k0_pay4 (F := Ideal) x0 x1) (k0_pay5 (F := Ideal) x0 x1) 5)
          + lane l 6 (sm (k0_pay4 (F := Ideal) x0 x1) (k0_pay5 (F := Ideal) x0 x1) 6)
          + lane l 7 (sm (k0_pay4 (F := Ideal) x0 x1) (k0_pay5 (F := Ideal) x0 x1) 7)
          + lane l 8 (sm (k0_pay4 (F := Ideal) x0 x1) (k0_pay5 (F := Ideal) x0 x1) 8)
          + lane l 9 (sm (k0_pay4 (F := Ideal) x0 x1) (k0_pay5 (F := Ideal) x0 x1) 9) := by
  show k0_pay2 lanes (k0_pay32 (k0_pay4 (F := Ideal) x0 x1) (k0_pay5 (F := Ideal) x0 x1) lanes (tile6 (F := Ideal) x0 x1).2)
      (k0_pay34 (k0_pay4 (F := Ideal) x0 x1) (k0_pay5 (F := Ideal) x0 x1)) (ix3 (0 : Fin 1) r l) = _
  rw [pay2_apply, pay32_apply, tile6_snd_apply, tile3_snd_apply]

/-- At lane 0 none of the nine is left. -/
theorem lane_sum9_zero (z : EReal) (c : ℕ → EReal) :
    z + lane (0 : Fin 128) 1 (c 1) + lane (0 : Fin 128) 2 (c 2) + lane (0 : Fin 128) 3 (c 3) + lane (0 : Fin 128) 4 (c 4)
      + lane (0 : Fin 128) 5 (c 5) + lane (0 : Fin 128) 6 (c 6) + lane (0 : Fin 128) 7 (c 7) + lane (0 : Fin 128) 8 (c 8)
      + lane (0 : Fin 128) 9 (c 9) = z := by
  unfold lane
  simp

theorem sm_pay (x0 : Vec Ideal S2048x512 .f32) (x1 : Vec Ideal S2048x1 .i32) (k : ℕ) :
    sm (k0_pay4 (F := Ideal) x0 x1) (k0_pay5 (F := Ideal) x0 x1) k
      = ∑ p : Fin 2048, ∑ q : Fin 512,
          (if sBlk x0 x1 p q < ((k : ℝ) : EReal) then (1 : EReal) else 0) * bBlk x0 x1 p q := by
  unfold sm ind
  exact Finset.sum_congr rfl fun p _ => Finset.sum_congr rfl fun q _ => by rw [pay4_apply, pay5_apply]

end KBlock

open KBlock

/-- Lane `k` (1 ≤ k ≤ 9) of the counts tile, on every sublane: how many elements of the block lie below `k`. -/
theorem out2_apply (x0 : Vec Ideal S2048x512 .f32) (x1 : Vec Ideal S2048x1 .i32) (r : Fin 8) (k : Fin 128)
    (hk1 : 1 ≤ k.val) (hk9 : k.val ≤ 9) :
    out2 (F := Ideal) x0 x1 (ix3 (0 : Fin 1) r k)
      = ∑ p : Fin 2048, ∑ q : Fin 512, if sBlk x0 x1 p q < ((k.val : ℝ) : EReal) then (1 : EReal) else 0 := by
  rw [out2_lanes, lane_sum9 0 rfl (cnt (k0_pay4 (F := Ideal) x0 x1)) k hk1 hk9, cnt_pay4]

/-- Lane `k` (1 ≤ k ≤ 9) of the sums tile: the cross-entropy terms of those elements, summed. -/
theorem out3_apply (x0 : Vec Ideal S2048x512 .f32) (x1 : Vec Ideal S2048x1 .i32) (r : Fin 8) (k : Fin 128)
    (hk1 : 1 ≤ k.val) (hk9 : k.val ≤ 9) :
    out3 (F := Ideal) x0 x1 (ix3 (0 : Fin 1) r k)
      = ∑ p : Fin 2048, ∑ q : Fin 512, (if sBlk x0 x1 p q < ((k.val : ℝ) : EReal) then (1 : EReal) else 0) * bBlk x0 x1 p q := by
  rw [out3_lanes, lane_sum9 (lane k 0 _) (if_neg (by omega)) (sm (k0_pay4 (F := Ideal) x0 x1) (k0_pay5 (F := Ideal) x0 x1)) k hk1 hk9,
    sm_pay]

/-- Lane 0 of the sums tile: every cross-entropy term of the block, summed. -/
theorem out3_apply_zero (x0 : Vec Ideal S2048x512 .f32) (x1 : Vec Ideal S2048x1 .i32) (r : Fin 8) :
    out3 (F := Ideal) x0 x1 (ix3 (0 : Fin 1) r (0 : Fin 128)) = ∑ p : Fin 2048, ∑ q : Fin 512, bBlk x0 x1 p q := by
  rw [out3_lanes, lane_sum9_zero _ (sm (k0_pay4 (F := Ideal) x0 x1) (k0_pay5 (F := Ideal) x0 x1))]
  unfold lane
  rw [if_pos (show ((0 : Fin 128) : ℕ) = 0 from rfl)]
  exact Finset.sum_congr rfl fun p _ => Finset.sum_congr rfl fun q _ => pay5_apply x0 x1 p q

end Cert.KernelIdeal.Hand

end
-- ==== Proof.LibSumBlocks.lean ====
/-
  A sum over `p·q` consecutive numbers is the sum over `p` blocks of the sums over the `q` numbers of each block.
-/
import Mathlib.Algebra.BigOperators.Fin
import Mathlib.Logic.Equiv.Fin.Basic

namespace Cert.LibSumBlocks

/-- The numbers below `p·q`, block by block: number `t·q + r` is entry `r` of block `t`. -/
theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.KSum.lean ====
/-
  Sums block by block are sums over the whole array: the 131072 rows are 64 blocks of 2048 consecutive rows.
-/
import proofs.«406612_j38671885533680_3_alg».proof.Proof.Spec
import proofs.«406612_j38671885533680_3_alg».proof.Proof.LibSumBlocks
import Idealize.ShloMosaic.Lib.ValueIdx

noncomputable section

open scoped BigOperators

namespace Cert.Spec

open Idealize.ShloMosaic Idealize.ShloMosaic.ValueIdx

/-- Row `p` of block `t`, as a row of the whole array. -/
def rowIn (t : Fin 64) (p : Fin 2048) : Fin 131072 := ⟨t.val * 2048 + p.val, by omega⟩

/-- A sum over the 131072 rows is the sum over the 64 blocks of the sums over each block's 2048 rows. -/
theorem sum_rows {M : Type} [AddCommMonoid M] (F : Fin 131072 → M) :
    ∑ t : Fin 64, ∑ p : Fin 2048, F (rowIn t p) = ∑ a : Fin 131072, F a := by
  -- a function of the row number that agrees with F on the rows
  obtain ⟨R, hR⟩ : ∃ R : ℕ → M, ∀ a : Fin 131072, R a.val = F a :=
    ⟨fun n => if h : n < 131072 then F ⟨n, h⟩ else 0, fun a => dif_pos a.isLt⟩
  have h1 : ∑ a : Fin 131072, F a = ∑ b : Fin (64 * 2048), R b.val :=
    Finset.sum_congr rfl fun a _ => (hR a).symm
  rw [h1, Cert.LibSumBlocks.sum_fin_mul 64 2048 R, Finset.sum_range]
  refine Finset.sum_congr rfl fun t _ => Finset.sum_congr rfl fun p _ => ?_
  exact (hR (rowIn t p)).symm

/-- A sum over the whole index set is the sum over the blocks of the sums over each block's rows and columns. -/
theorem sum_blocks {M : Type} [AddCommMonoid M] (g : SX.Idx → M) :
    ∑ t : Fin 64, ∑ p : Fin 2048, ∑ q : Fin 512, g (ix2 (rowIn t p) q) = ∑ i : SX.Idx, g i := by
  rw [sum_idx2 g]
  exact sum_rows fun a => ∑ q : Fin 512, g (ix2 a q)

/-- The inclusion of the reals in the extended reals carries finite sums to finite sums. -/
theorem coe_sum_real {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The sum of the indicator of a property over a finite set is the number of elements with the property. -/
theorem sum_ind_eq_card {ι : Type} [Fintype ι] (P : ι → Prop) [DecidablePred P] :
    ∑ i : ι, (if P i then (1 : EReal) else 0) = ((((Finset.univ.filter P).card : ℕ) : ℝ) : EReal) := by
  have h : ∀ i, (if P i then (1 : EReal) else 0) = (((if P i then (1 : ℝ) else 0) : ℝ) : EReal) := by
    intro i; split_ifs <;> simp
  simp only [h]
  rw [← coe_sum_real, Finset.sum_boole]

/-- The number of elements of block `t` whose value is below `k`. -/
def cntIn (s : SX.Idx → EReal) (k : ℕ) (t : Fin 64) : ℕ :=
  ((Finset.univ : Finset (Fin 2048 × Fin 512)).filter
    fun pq => s (ix2 (rowIn t pq.1) pq.2) < ((k : ℝ) : EReal)).card

/-- A block has 2048 · 512 = 2^20 elements, so at most that many are below `k`. -/
theorem cntIn_le (s : SX.Idx → EReal) (k : ℕ) (t : Fin 64) : cntIn s k t ≤ 1048576 := by
  have hc : (Finset.univ : Finset (Fin 2048 × Fin 512)).card = 1048576 := by
    rw [Finset.card_univ, Fintype.card_prod, Fintype.card_fin, Fintype.card_fin]
  exact (Finset.card_filter_le _ _).trans hc.le

/-- The indicator of "below `k`" summed over a block is the block's count. -/
theorem cntIn_eq (s : SX.Idx → EReal) (k : ℕ) (t : Fin 64) :
    (∑ p : Fin 2048, ∑ q : Fin 512, if s (ix2 (rowIn t p) q) < ((k : ℝ) : EReal) then (1 : EReal) else 0)
      = (((cntIn s k t : ℕ) : ℝ) : EReal) := by
  unfold cntIn
  rw [← sum_ind_eq_card]
  exact (Fintype.sum_prod_type
    (fun pq : Fin 2048 × Fin 512 => if s (ix2 (rowIn t pq.1) pq.2) < ((k : ℝ) : EReal) then (1 : EReal) else 0)).symm

/-- The per-block counts of elements below `k` are natural numbers, at most 2^20 each, and add up to the whole count. -/
theorem cnt_blocks (s : SX.Idx → EReal) (k : ℕ) :
    ∃ n : Fin 64 → ℕ, (∀ t, n t ≤ 1048576)
      ∧ (∀ t : Fin 64, (∑ p : Fin 2048, ∑ q : Fin 512, if s (ix2 (rowIn t p) q) < ((k : ℝ) : EReal) then (1 : EReal) else 0) = (((n t : ℕ) : ℝ) : EReal))
      ∧ ((((∑ t : Fin 64, n t : ℕ)) : ℝ) : EReal) = cntLt s k := by
  refine ⟨cntIn s k, cntIn_le s k, cntIn_eq s k, ?_⟩
  rw [Nat.cast_sum, coe_sum_real]
  simp only [← cntIn_eq]
  exact sum_blocks fun i => if s i < ((k : ℝ) : EReal) then (1 : EReal) else 0

end Cert.Spec

end
-- ==== Proof.LibNary3.lean ====
/-
  The result of an operation over a LITERAL family of three operand references.

  An operation over a family `xs : Fin n → reference` writes, at its result reference, its function applied to the
  family of the operands' contents `fun k => V (xs k)`. When the family is the literal triple `![x, a, b]`, the
  operand contents are read here at the three references themselves — the family `V x, V a, V b` built by
  `Fin.cons` — so that a rewriting of a straight line of operations can go on through each operand: under the binder
  the reference `![x, a, b] k` is no literal. Stated once for rewriting and once, the result reference un-indexed,
  for simplification; the same pair as the library's lemma for a literal family of four.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- An operation over the literal family `![x, a, b]` writes, at its result reference, its function at the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplification pass fires on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.KTail.lean ====
/-
  The host operations that run after the kernel's region, composed and read at the extended reals.

  The region leaves two arrays of 64 tiles of 8 x 128: in the first, lanes 1 .. 9 of row 0 of tile t hold block t's
  counts of elements whose scaled magnitude lies below k = 1 .. 9; in the second, the same lanes hold the sums of
  those elements' cross-entropy terms and lane 0 the block's whole sum. The operations after the region convert
  the counts to integers and sum them over the 64 blocks, sum the cross-entropy tiles over the blocks, and read off
  the nine cumulative counts, the nine cumulative sums and the whole sum; each family is extended to eleven edges
  (0 in front; the number of elements, respectively the whole sum, behind), adjacent differences give the ten
  per-bin counts and sums, a bin's weight is the number of elements over max(count, 1) where the count is
  positive and 0 elsewhere, divided by max(number of non-empty bins, 1), and the loss is the weighted sum of the
  per-bin sums over the number of elements.

  `tailVal` is that composition as one term over the two arrays, for every float family; `after_tail` says the
  straight line of the 54 operations leaves it at the result reference; `tailVal_apply` reads it at the extended
  reals, when the counts array holds natural numbers at most 2^20 on the lanes read, as the specification's loss
  from cumulative edges.
-/
import proofs.«406612_j38671885533680_3_alg».proof.Proof.Gen.KernelIdeal.Launch
import proofs.«406612_j38671885533680_3_alg».proof.Proof.Spec
import proofs.«406612_j38671885533680_3_alg».proof.Proof.LibNary3
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.TcCoe Idealize.ShloMosaic.StableHlo Cert.KernelIdeal Cert.KernelIdeal.Gen
open Idealize.ShloMosaic.ValueIdx Idealize.ShloMosaic.StableHlo.Predicate

/-! ## The composed term, in named pieces -/

namespace Tail

section Term
variable {F : FTy → Type} [FloatOps F]

/-- The per-block counts converted to integers and summed over the 64 blocks: an 8 x 128 tile of words. -/
def cntTile (A2 : FVec F S64x8x128 .f32) : IVec S8x128 32 :=
  Host.reduce IntOp.addi (fptosi 32 A2) (constantI S_ 32 0#32) reducesTo_S64x8x128_S8x128_d0 h_S_

/-- Lanes 1 .. 9 of row 0 of the summed counts, as floats: the nine cumulative counts. -/
def cumCnt (A2 : FVec F S64x8x128 .f32) : FVec F S9 .f32 :=
  sitofp (F := F) .f32 (shapeCast S9 (extractStridedSlice S1x9 ![0, 1] (cntTile A2) slices_S8x128_S1x9_0_1) shapeCasts_S1x9_S9)

/-- The per-block cross-entropy sums summed over the 64 blocks: an 8 x 128 tile. -/
def bceTile (A3 : FVec F S64x8x128 .f32) : FVec F S8x128 .f32 :=
  Host.reduceAdd A3 (constant (F := F) S_ .f32 0x00000000#32) reducesTo_S64x8x128_S8x128_d0 h_S_

/-- Lanes 1 .. 9 of row 0 of that tile: the nine cumulative sums. -/
def cumBce (A3 : FVec F S64x8x128 .f32) : FVec F S9 .f32 :=
  shapeCast S9 (extractStridedSlice S1x9 ![0, 1] (bceTile A3) slices_S8x128_S1x9_0_1) shapeCasts_S1x9_S9

/-- Lane 0 of row 0 of that tile: the sum of all cross-entropy terms. -/
def totBce (A3 : FVec F S64x8x128 .f32) : FVec F S_ .f32 :=
  shapeCast S_ (extractStridedSlice S1x1 ![0, 0] (bceTile A3) slices_S8x128_S1x1_0_0) shapeCasts_S1x1_S_

/-- Eleven edges from a first entry, nine middle entries and a last entry. -/
def edges (a : FVec F S1 .f32) (b : FVec F S9 .f32) (c : FVec F S1 .f32) : FVec F S11 .f32 :=
  concatenate S11 0 [⟨S1, a⟩, ⟨S9, b⟩, ⟨S1, c⟩] concatenates_S1_S9_S1_S11_d0

/-- The cumulative counts at the eleven edges: 0, the nine counts, the number of elements. -/
def cEdges (A2 : FVec F S64x8x128 .f32) : FVec F S11 .f32 :=
  edges (broadcastInDim S1 ![] bcast_S_S1 (constant (F := F) S_ .f32 0x00000000#32)) (cumCnt A2)
    (broadcastInDim S1 ![] bcast_S_S1 (constant (F := F) S_ .f32 0x4C800000#32))

/-- The cumulative sums at the eleven edges: 0, the nine sums, the whole sum. -/
def bEdges (A3 : FVec F S64x8x128 .f32) : FVec F S11 .f32 :=
  edges (broadcastInDim S1 ![] bcast_S_S1 (constant (F := F) S_ .f32 0x00000000#32)) (cumBce A3)
    (broadcastInDim S1 ![] bcast_S_S1 (totBce A3))

/-- Adjacent differences of eleven edges: ten per-bin values. -/
def diffs (E : FVec F S11 .f32) : FVec F S10 .f32 :=
  subf (extractStridedSlice S10 ![1] E slices_S11_S10_1) (extractStridedSlice S10 ![0] E slices_S11_S10_0)

/-- Which bins are not empty. -/
def nonEmpty (c : FVec F S10 .f32) : IVec S10 1 :=
  cmpf (F := F) .ogt c (broadcastInDim S10 ![] bcast_S_S10 (constant (F := F) S_ .f32 0x00000000#32))

/-- The number of non-empty bins. -/
def nNonEmpty (c : FVec F S10 .f32) : FVec F S_ .f32 :=
  Host.reduceAdd (uitofp (F := F) .f32 (nonEmpty c)) (constant (F := F) S_ .f32 0x00000000#32) reducesTo_S10_S_d0 h_S_

/-- A bin's weight: the number of elements over max(count, 1) where the bin is not empty, else 0. -/
def wRaw (c : FVec F S10 .f32) : FVec F S10 .f32 :=
  select (nonEmpty c)
    (Host.divf (broadcastInDim S10 ![] bcast_S_S10 (constant (F := F) S_ .f32 0x4C800000#32))
      (maximumf c (broadcastInDim S10 ![] bcast_S_S10 (constant (F := F) S_ .f32 0x3F800000#32))))
    (broadcastInDim S10 ![] bcast_S_S10 (id (constant (F := F) S_ .f32 0x00000000#32)))

/-- The weights divided by max(number of non-empty bins, 1). -/
def wNormV (c : FVec F S10 .f32) : FVec F S10 .f32 :=
  Host.divf (wRaw c) (broadcastInDim S10 ![] bcast_S_S10 (maximumf (nNonEmpty c) (constant (F := F) S_ .f32 0x3F800000#32)))

/-- The loss from the ten counts and the ten sums. -/
def lossOf (c s : FVec F S10 .f32) : FVec F S_ .f32 :=
  mulf (Host.divf (Host.reduceAdd (mulf (wNormV c) s) (constant (F := F) S_ .f32 0x00000000#32) reducesTo_S10_S_d0 h_S_)
    (constant (F := F) S_ .f32 0x4C800000#32)) (constant (F := F) S_ .f32 0x3F800000#32)

end Term

end Tail

open Tail

section Fold
variable {F : FTy → Type} [FloatOps F]

/-- What the host operations after the region compute from the two arrays the region wrote. -/
def tailVal (A2 A3 : FVec F S64x8x128 .f32) : FVec F S_ .f32 :=
  lossOf (diffs (cEdges A2)) (diffs (bEdges A3))

/-! ## The straight line leaves the composed term at the result -/

set_option maxRecDepth 8192 in
set_option maxHeartbeats 4000000 in
/-- From any contents: after the 54 operations the result reference holds `tailVal` of the two arrays' contents. Each
    operation's result is read at its own result reference and every other reference keeps what it held; a three-piece
    concatenation reads its three operands each at its own reference. -/
theorem after_tail (W : Valuation τ sig (Elt F)) :
    StableHlo.after (List.flatten [hostOps1, hostOps1_1, hostOps1_2]) W (Proc.devRef .tc main_v39)
      = tailVal (F := F) (W (Proc.devRef .tc main_v1_0)) (W (Proc.devRef .tc main_v1_1)) := by
  simp only [hostOps1, hostOps1_1, hostOps1_2, List.flatten_cons, List.flatten_nil, List.append_nil, List.cons_append, List.nil_append]
  simp only [after_cons, after_nil]
  repeat (first
     | rw [nullary_result] | rw [unary_result] | rw [binary_result] | rw [ternary_result]
     | rw [reshape_result] | rw [Cert.LibNary3.nary3_result]
     | (rw [nullary_result_ne]; rotate_left; decide)
     | (rw [unary_result_ne]; rotate_left; decide)
     | (rw [binary_result_ne]; rotate_left; decide)
     | (rw [ternary_result_ne]; rotate_left; decide)
     | (rw [reshape_result_ne]; rotate_left; decide)
     | (rw [nary_result_ne]; rotate_left; decide))
  rfl

end Fold

/-! ## The pieces read at an index, at the extended reals -/

namespace Tail

section Read

/-! ## The constants -/

/-- The word of 1.0 denotes 1. -/
theorem ofBits_one : Ideal.ofBits .f32 0x3F800000#32 = 1 := by
  simp [Ideal.ofBits, Ideal.ieee, -EReal.coe_mul]; norm_num

/-- The word of 67108864.0 denotes the number of elements. -/
theorem ofBits_tot : Ideal.ofBits .f32 0x4C800000#32 = Cert.Spec.tot := by
  unfold Cert.Spec.tot
  simp [Ideal.ofBits, Ideal.ieee, -EReal.coe_mul]; norm_num

/-! ## The sums over the 64 blocks -/

/-- The 64 x 8 x 128 arrays reduce along their first axis. -/
theorem red64 : S64x8x128.Reduces [0] S8x128 := by decide

/-- Over tile position (r, k), block t: the array's index (t, r, k). -/
theorem red64_lift (r : Fin 8) (k : Fin 128) (t : Fin 64) : red64.lift (ix2 r k) t = ix3 t r k := by
  funext a
  match a with
  | ⟨0, _⟩ => exact Fin.ext rfl
  | ⟨1, _⟩ => exact Fin.ext rfl
  | ⟨2, _⟩ => exact Fin.ext rfl

/-- The float-to-integer conversion of a natural number below 2^31 is its word. -/
theorem fptosi_natCast (m : ℕ) (hm : m < 2147483648) : Ideal.fptosi 32 (((m : ℕ) : ℝ) : EReal) = BitVec.ofNat 32 m := by
  unfold Ideal.fptosi
  rw [Ideal.toIntClamped_coe, if_pos (Nat.cast_nonneg m), Int.floor_natCast]
  have h1 : max (-((2 ^ (32 - 1) : ℕ) : ℤ)) (min (((2 ^ (32 - 1) : ℕ) : ℤ) - 1) (m : ℤ)) = (m : ℤ) := by
    norm_num; omega
  rw [h1]; exact BitVec.ofInt_natCast 32 m

/-- The summed counts at tile position (r, k), when every block's entry there is a natural number at most 2^20:
    the word of the sum. -/
theorem cntTile_apply (A2 : FVec Ideal S64x8x128 .f32) (n : Fin 64 → ℕ) (hn : ∀ t, n t ≤ 1048576) (r : Fin 8) (k : Fin 128)
    (hA : ∀ t, A2 (ix3 t r k) = (((n t : ℕ) : ℝ) : EReal)) :
    cntTile (F := Ideal) A2 (ix2 r k) = BitVec.ofNat 32 (∑ t, n t) := by
  unfold cntTile
  rw [Host.reduce_eq_fold_single IntOp.addi _ _ reducesTo_S64x8x128_S8x128_d0 red64 h_S_ (ix2 r k)]
  have hpt : ∀ t : Fin 64, (fptosi (F := Ideal) 32 A2 ∘ red64.lift (ix2 r k)) t = BitVec.ofNat 32 (n t) := fun t => by
    show Ideal.fptosi 32 (A2 (red64.lift (ix2 r k) t)) = _
    rw [red64_lift, hA t, fptosi_natCast _ (by have := hn t; omega)]
  have hsum : ∑ t : Fin 64, ((fptosi (F := Ideal) 32 A2 ∘ red64.lift (ix2 r k)) t).toNat = ∑ t, n t :=
    Finset.sum_congr rfl fun t _ => by
      rw [hpt t, BitVec.toNat_ofNat]; exact Nat.mod_eq_of_lt (by have := hn t; omega)
  have hle : ∑ t : Fin 64, n t ≤ 67108864 := by
    calc ∑ t : Fin 64, n t ≤ ∑ _t : Fin 64, 1048576 := Finset.sum_le_sum fun t _ => hn t
      _ = 67108864 := by simp
  apply BitVec.eq_of_toNat_eq
  rw [BitVec.toNat_ofNat, Nat.mod_eq_of_lt (by omega : ∑ t, n t < 2 ^ 32)]
  exact (toNat_fold_addi _ _ (lt_of_eq_of_lt hsum (by omega))).trans hsum

/-- The summed cross-entropy tile at position (r, k): the sum over the blocks. -/
theorem bceTile_apply (A3 : FVec Ideal S64x8x128 .f32) (r : Fin 8) (k : Fin 128) :
    bceTile (F := Ideal) A3 (ix2 r k) = ∑ t : Fin 64, A3 (ix3 t r k) := by
  unfold bceTile Host.reduceAdd
  show Ideal.hostReduceAdd reducesTo_S64x8x128_S8x128_d0 A3 (Ideal.ofBits .f32 0x00000000#32) (ix2 r k) = _
  rw [Ideal.hostReduceAdd_single reducesTo_S64x8x128_S8x128_d0 red64, Ideal.ofBits_zero_f32, zero_add]
  exact Finset.sum_congr rfl fun t _ => congrArg A3 (red64_lift r k t)

end Read

section Read2
variable {F : FTy → Type} [FloatOps F]

/-! ## Slices, reshapes, and the three-piece concatenation, read at an index -/

/-- Lanes 1 .. 9 of row 0 of a tile, as a vector of nine: entry j is the tile at (0, j + 1). -/
theorem lanes19_apply {α : Type} (X : S8x128.Idx → α) (j : Fin 9) :
    shapeCast S9 (extractStridedSlice S1x9 ![0, 1] X slices_S8x128_S1x9_0_1) shapeCasts_S1x9_S9 (ix1 j)
      = X (ix2 (0 : Fin 8) (⟨j.val + 1, by omega⟩ : Fin 128)) := by
  refine (shapeCast_1a_a_apply _ shapeCasts_S1x9_S9 j).trans ?_
  refine extractStridedSlice_apply _ X slices_S8x128_S1x9_0_1 _ _ fun a => ?_
  match a with
  | ⟨0, _⟩ => rfl
  | ⟨1, _⟩ => show j.val + 1 = 1 + j.val; omega

/-- Lane 0 of row 0 of a tile, as a scalar. -/
theorem lane0_apply {α : Type} (X : S8x128.Idx → α) :
    shapeCast S_ (extractStridedSlice S1x1 ![0, 0] X slices_S8x128_S1x1_0_0) shapeCasts_S1x1_S_ ix0
      = X (ix2 (0 : Fin 8) (0 : Fin 128)) := by
  refine (shapeCast_apply _ shapeCasts_S1x1_S_ ix0 (ix2 (0 : Fin 1) (0 : Fin 1)) rfl).trans ?_
  refine extractStridedSlice_apply _ X slices_S8x128_S1x1_0_0 _ _ fun a => ?_
  match a with
  | ⟨0, _⟩ => rfl
  | ⟨1, _⟩ => rfl

/-- A scalar broadcast to a vector reads the scalar everywhere. -/
theorem bcast_apply {α : Type} {n : ℕ} (h : S_.BroadcastsInDim (⟨1, ![n]⟩ : Shape) (![] : Fin 0 → Fin 1)) (x : S_.Idx → α) (j : Fin n) :
    broadcastInDim (⟨1, ![n]⟩ : Shape) ![] h x (ix1 j) = x ix0 :=
  broadcastInDim_apply _ h x _ ix0 fun a => a.elim0

/-- The eleven edges at edge 0: the first entry. -/
theorem edges_first (a : FVec F S1 .f32) (b : FVec F S9 .f32) (c : FVec F S1 .f32) (k : Fin 11) (hk : k.val = 0) :
    edges a b c (ix1 k) = a (ix1 0) := by
  unfold edges
  refine concatenate_apply_piece (t := S11) (0 : Fin 1) [⟨S1, a⟩, ⟨S9, b⟩, ⟨S1, c⟩] concatenates_S1_S9_S1_S11_d0 (ix1 k) 0 (by show 0 < 3; omega) S1 a rfl rfl 0 rfl (ix1 0)
    (fun b hb => absurd (Subsingleton.elim _ _) hb) ?_
  show 0 + 0 = k.val; omega

/-- At edge j + 1, j below 9: middle entry j. -/
theorem edges_mid (a : FVec F S1 .f32) (b : FVec F S9 .f32) (c : FVec F S1 .f32) (k : Fin 11) (j : Fin 9) (hk : k.val = j.val + 1) :
    edges a b c (ix1 k) = b (ix1 j) := by
  unfold edges
  refine concatenate_apply_piece (t := S11) (0 : Fin 1) [⟨S1, a⟩, ⟨S9, b⟩, ⟨S1, c⟩] concatenates_S1_S9_S1_S11_d0 (ix1 k) 1 (by show 1 < 3; omega) S9 b rfl rfl 1 rfl (ix1 j)
    (fun b hb => absurd (Subsingleton.elim _ _) hb) ?_
  show 1 + j.val = k.val; omega

/-- At edge 10: the last entry. -/
theorem edges_last (a : FVec F S1 .f32) (b : FVec F S9 .f32) (c : FVec F S1 .f32) (k : Fin 11) (hk : k.val = 10) :
    edges a b c (ix1 k) = c (ix1 0) := by
  unfold edges
  refine concatenate_apply_piece (t := S11) (0 : Fin 1) [⟨S1, a⟩, ⟨S9, b⟩, ⟨S1, c⟩] concatenates_S1_S9_S1_S11_d0 (ix1 k) 2 (by show 2 < 3; omega) S1 c rfl rfl 10 rfl (ix1 0)
    (fun b hb => absurd (Subsingleton.elim _ _) hb) ?_
  show 10 + 0 = k.val; omega

/-- Adjacent differences at bin j: edge j + 1 less edge j. -/
theorem diffs_apply (E : FVec Ideal S11 .f32) (j : Fin 10) :
    diffs (F := Ideal) E (ix1 j) = E (ix1 j.succ) - E (ix1 j.castSucc) := by
  unfold diffs
  rw [subf_apply]
  congr 1
  · refine extractStridedSlice_apply _ E slices_S11_S10_1 _ _ fun a => ?_
    match a with
    | ⟨0, _⟩ => show j.val + 1 = 1 + j.val; omega
  · refine extractStridedSlice_apply _ E slices_S11_S10_0 _ _ fun a => ?_
    match a with
    | ⟨0, _⟩ => show j.val = 0 + j.val; omega

end Read2

section Read3

/-! ## The weights and the loss -/

/-- A length-10 vector's indices are its ten coordinates. -/
def idx10 : S10.Idx ≃ Fin 10 where
  toFun i := i 0
  invFun j := ix1 j
  left_inv i := (eq_ix1 i).symm
  right_inv _ := rfl

/-- A sum of a length-10 vector into a scalar from zero: the sum of its entries. -/
theorem sum10_apply (x : FVec Ideal S10 .f32) :
    Host.reduceAdd (F := Ideal) x (constant (F := Ideal) S_ .f32 0x00000000#32) reducesTo_S10_S_d0 h_S_ ix0 = ∑ j : Fin 10, x (ix1 j) := by
  unfold Host.reduceAdd
  show Ideal.hostReduceAdd reducesTo_S10_S_d0 x (Ideal.ofBits .f32 0x00000000#32) ix0 = _
  rw [Ideal.hostReduceAdd_total reducesTo_S10_S_d0 (fun b => b.elim0), Ideal.ofBits_zero_f32, zero_add]
  exact Fintype.sum_equiv idx10 _ _ fun i => congrArg x (eq_ix1 i)

/-- The non-empty test at bin j, as a word. -/
theorem nonEmpty_apply (c : FVec Ideal S10 .f32) (j : Fin 10) :
    nonEmpty (F := Ideal) c (ix1 j) = BitVec.ofBool (decide (0 < c (ix1 j))) := by
  unfold nonEmpty
  rw [cmpf_apply, bcast_apply]
  show Ideal.cmp .ogt (c (ix1 j)) (Ideal.ofBits .f32 0x00000000#32) = _
  rw [Ideal.ofBits_zero_f32]
  rfl

/-- The number of non-empty bins. -/
theorem nNonEmpty_apply (c : FVec Ideal S10 .f32) :
    nNonEmpty (F := Ideal) c ix0 = ∑ j : Fin 10, if 0 < c (ix1 j) then (1 : EReal) else 0 := by
  unfold nNonEmpty
  rw [sum10_apply]
  refine Finset.sum_congr rfl fun j _ => ?_
  show (((nonEmpty (F := Ideal) c (ix1 j)).toNat : ℝ) : EReal) = _
  rw [nonEmpty_apply]
  by_cases h : 0 < c (ix1 j)
  · rw [if_pos h, decide_eq_true h]; simp
  · rw [if_neg h, decide_eq_false h]; simp

/-- A bin's weight. -/
theorem wRaw_apply (c : FVec Ideal S10 .f32) (j : Fin 10) :
    wRaw (F := Ideal) c (ix1 j) = Cert.Spec.wBin (fun j => c (ix1 j)) j := by
  unfold wRaw Cert.Spec.wBin
  rw [select_apply, nonEmpty_apply]
  by_cases h : 0 < c (ix1 j)
  · rw [if_pos h, decide_eq_true h]
    show Ideal.div (broadcastInDim S10 ![] bcast_S_S10 (constant (F := Ideal) S_ .f32 0x4C800000#32) (ix1 j))
      (max (c (ix1 j)) (broadcastInDim S10 ![] bcast_S_S10 (constant (F := Ideal) S_ .f32 0x3F800000#32) (ix1 j))) = _
    rw [bcast_apply, bcast_apply, constant_apply, constant_apply, ofBits_tot, ofBits_one]
  · rw [if_neg h, decide_eq_false h]
    show broadcastInDim S10 ![] bcast_S_S10 (id (constant (F := Ideal) S_ .f32 0x00000000#32)) (ix1 j) = _
    rw [bcast_apply]
    exact Ideal.ofBits_zero_f32

/-- The normalized weight. -/
theorem wNormV_apply (c : FVec Ideal S10 .f32) (j : Fin 10) :
    wNormV (F := Ideal) c (ix1 j) = Cert.Spec.wNorm (fun j => c (ix1 j)) j := by
  unfold wNormV Cert.Spec.wNorm Cert.Spec.nBins
  show Ideal.div (wRaw (F := Ideal) c (ix1 j))
    (broadcastInDim S10 ![] bcast_S_S10 (maximumf (nNonEmpty (F := Ideal) c) (constant (F := Ideal) S_ .f32 0x3F800000#32)) (ix1 j)) = _
  rw [bcast_apply, maximumf_apply, nNonEmpty_apply, constant_apply, ofBits_one, wRaw_apply]

/-- The loss from ten counts and ten sums. -/
theorem lossOf_apply (c s : FVec Ideal S10 .f32) :
    lossOf (F := Ideal) c s ix0
      = Ideal.div (∑ j : Fin 10, Cert.Spec.wNorm (fun j => c (ix1 j)) j * s (ix1 j)) Cert.Spec.tot := by
  unfold lossOf
  rw [mulf_apply, constant_apply, ofBits_one, mul_one]
  show Ideal.div (Host.reduceAdd (F := Ideal) (mulf (wNormV (F := Ideal) c) s) (constant (F := Ideal) S_ .f32 0x00000000#32) reducesTo_S10_S_d0 h_S_ ix0)
    (constant (F := Ideal) S_ .f32 0x4C800000#32 ix0) = _
  rw [sum10_apply, constant_apply, ofBits_tot]
  congr 1
  exact Finset.sum_congr rfl fun j _ => by rw [mulf_apply, wNormV_apply]

end Read3

section Read4

/-! ## The edges -/

/-- Cumulative count j (the count below threshold j + 1) as a float: the natural number summed over the blocks. -/
theorem cumCnt_apply (A2 : FVec Ideal S64x8x128 .f32) (n : Fin 64 → ℕ → ℕ) (hn : ∀ t k, n t k ≤ 1048576)
    (hA2 : ∀ (t : Fin 64) (k : Fin 128), 1 ≤ k.val → k.val ≤ 9 → A2 (ix3 t (0 : Fin 8) k) = (((n t k.val : ℕ) : ℝ) : EReal))
    (j : Fin 9) :
    cumCnt (F := Ideal) A2 (ix1 j) = (((∑ t : Fin 64, n t (j.val + 1) : ℕ) : ℝ) : EReal) := by
  have hle : ∑ t : Fin 64, n t (j.val + 1) ≤ 67108864 := by
    calc ∑ t : Fin 64, n t (j.val + 1) ≤ ∑ _t : Fin 64, 1048576 := Finset.sum_le_sum fun t _ => hn t _
      _ = 67108864 := by simp
  have hlt : ∑ t : Fin 64, n t (j.val + 1) < 2 ^ 31 := by omega
  have hj : j.val + 1 < 128 := by omega
  have h1 : cntTile (F := Ideal) A2 (ix2 (0 : Fin 8) (⟨j.val + 1, hj⟩ : Fin 128)) = BitVec.ofNat 32 (∑ t : Fin 64, n t (j.val + 1)) :=
    cntTile_apply A2 (fun t => n t (j.val + 1)) (fun t => hn t _) 0 ⟨j.val + 1, hj⟩
      (fun t => hA2 t ⟨j.val + 1, hj⟩ (Nat.le_add_left 1 j.val) (Nat.succ_le_of_lt j.isLt))
  have h2 : cumCnt (F := Ideal) A2 (ix1 j)
      = (((cntTile (F := Ideal) A2 (ix2 (0 : Fin 8) (⟨j.val + 1, hj⟩ : Fin 128))).toInt : ℝ) : EReal) := by
    unfold cumCnt
    rw [sitofp_apply, lanes19_apply]
    rfl
  rw [h2, h1, toInt_ofNat_small _ hlt, Int.cast_natCast]

/-- The cumulative counts at the eleven edges. -/
theorem cEdges_apply (A2 : FVec Ideal S64x8x128 .f32) (n : Fin 64 → ℕ → ℕ) (hn : ∀ t k, n t k ≤ 1048576)
    (hA2 : ∀ (t : Fin 64) (k : Fin 128), 1 ≤ k.val → k.val ≤ 9 → A2 (ix3 t (0 : Fin 8) k) = (((n t k.val : ℕ) : ℝ) : EReal))
    (k : Fin 11) :
    cEdges (F := Ideal) A2 (ix1 k)
      = if k.val = 0 then 0 else if k.val = 10 then Cert.Spec.tot else ((((∑ t : Fin 64, n t k.val : ℕ)) : ℝ) : EReal) := by
  unfold cEdges
  by_cases h0 : k.val = 0
  · rw [if_pos h0, edges_first _ _ _ k h0, bcast_apply, constant_apply, Ideal.ofBits_zero_f32]
  · rw [if_neg h0]
    by_cases h10 : k.val = 10
    · rw [if_pos h10, edges_last _ _ _ k h10, bcast_apply, constant_apply, ofBits_tot]
    · rw [if_neg h10, edges_mid _ _ _ k ⟨k.val - 1, by omega⟩ (by show k.val = k.val - 1 + 1; omega),
        cumCnt_apply A2 n hn hA2]
      show ((((∑ t : Fin 64, n t (k.val - 1 + 1) : ℕ)) : ℝ) : EReal) = _
      rw [show k.val - 1 + 1 = k.val by omega]

/-- The cumulative cross-entropy sums at the eleven edges: edge k reads lane k of row 0 for k = 1 .. 9, and lane 0,
    the whole sum, at edge 10. -/
theorem bEdges_apply (A3 : FVec Ideal S64x8x128 .f32) (k : Fin 11) :
    bEdges (F := Ideal) A3 (ix1 k)
      = if k.val = 0 then 0 else ∑ t : Fin 64, A3 (ix3 t (0 : Fin 8) (⟨k.val % 10, by omega⟩ : Fin 128)) := by
  unfold bEdges
  by_cases h0 : k.val = 0
  · rw [if_pos h0, edges_first _ _ _ k h0, bcast_apply, constant_apply, Ideal.ofBits_zero_f32]
  · rw [if_neg h0]
    by_cases h10 : k.val = 10
    · rw [edges_last _ _ _ k h10, bcast_apply]
      unfold totBce
      rw [lane0_apply, bceTile_apply]
      refine Finset.sum_congr rfl fun t _ => congrArg A3 (congrArg (ix3 t (0 : Fin 8)) (Fin.ext ?_))
      show 0 = k.val % 10; omega
    · rw [edges_mid _ _ _ k ⟨k.val - 1, by omega⟩ (by show k.val = k.val - 1 + 1; omega)]
      unfold cumBce
      rw [lanes19_apply, bceTile_apply]
      refine Finset.sum_congr rfl fun t _ => congrArg A3 (congrArg (ix3 t (0 : Fin 8)) (Fin.ext ?_))
      show k.val - 1 + 1 = k.val % 10; omega

end Read4

end Tail

/-! ## The whole tail -/

/-- The tail at the extended reals: the loss from the cumulative counts and the cumulative sums. -/
theorem tailVal_apply (A2 A3 : FVec Ideal S64x8x128 .f32) (n : Fin 64 → ℕ → ℕ) (hn : ∀ t k, n t k ≤ 1048576)
    (hA2 : ∀ (t : Fin 64) (k : Fin 128), 1 ≤ k.val → k.val ≤ 9 → A2 (ix3 t (0 : Fin 8) k) = (((n t k.val : ℕ) : ℝ) : EReal)) :
    tailVal (F := Ideal) A2 A3 ix0
      = Cert.Spec.lossCum
          (fun k : Fin 11 => if k.val = 0 then 0 else if k.val = 10 then Cert.Spec.tot else ((((∑ t : Fin 64, n t k.val : ℕ)) : ℝ) : EReal))
          (fun k : Fin 11 => if k.val = 0 then 0 else ∑ t : Fin 64, A3 (ix3 t (0 : Fin 8) (⟨k.val % 10, by omega⟩ : Fin 128))) := by
  unfold tailVal Cert.Spec.lossCum
  rw [lossOf_apply]
  have hc : (fun j : Fin 10 => diffs (F := Ideal) (cEdges (F := Ideal) A2) (ix1 j))
      = fun j : Fin 10 =>
        (fun k : Fin 11 => if k.val = 0 then (0 : EReal) else if k.val = 10 then Cert.Spec.tot else ((((∑ t : Fin 64, n t k.val : ℕ)) : ℝ) : EReal)) j.succ
        - (fun k : Fin 11 => if k.val = 0 then (0 : EReal) else if k.val = 10 then Cert.Spec.tot else ((((∑ t : Fin 64, n t k.val : ℕ)) : ℝ) : EReal)) j.castSucc := by
    funext j
    rw [diffs_apply, cEdges_apply A2 n hn hA2, cEdges_apply A2 n hn hA2]
  rw [hc]
  congr 1
  refine Finset.sum_congr rfl fun j _ => ?_
  rw [diffs_apply, bEdges_apply, bEdges_apply]

end Cert.KernelIdeal.Hand

end
-- ==== Proof.KValue.lean ====
/-
  The kernel's program, read: its result is the loss summed bin by bin through cumulative edges. The two arrays the
  region wrote hold, block by block, the counts and the cross-entropy sums below each threshold; the host adds the
  blocks, and sums over the blocks of sums over a block's rows are sums over the whole array.
-/
import proofs.«406612_j38671885533680_3_alg».proof.Proof.KFrameI
import proofs.«406612_j38671885533680_3_alg».proof.Proof.KFinal
import proofs.«406612_j38671885533680_3_alg».proof.Proof.KBlock
import proofs.«406612_j38671885533680_3_alg».proof.Proof.KSum
import proofs.«406612_j38671885533680_3_alg».proof.Proof.KTail
import proofs.«406612_j38671885533680_3_alg».proof.Proof.Spec

noncomputable section

open scoped BigOperators

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The row of an element built from its coordinates. -/
theorem rowOf_ix2 (a : Fin 131072) (q : Fin 512) : Cert.Spec.rowOf (ix2 a q) = ix1 a := by
  funext d; match d with | ⟨0, _⟩ => rfl

/-- An element of block t has the scaled magnitude of the whole array's element at row t * 2048 + p. -/
theorem sBlk_eq (c : Dev nD) (t : Fin 64) (p : Fin 2048) (q : Fin 512) :
    sBlk (iblk m c 0 (ptOf t)) (iblk m c 1 (ptOf t)) p q
      = Cert.Spec.sAt (m ((c.tc : Thread nD τ).loc main_arg0)) (m ((c.tc : Thread nD τ).loc main_arg1)) (ix2 (Cert.Spec.rowIn t p) q) := by
  unfold sBlk Cert.Spec.sAt Cert.Spec.hAt
  rw [iblk0_apply, iblk1_apply, rowOf_ix2]
  rfl

/-- And its cross-entropy term. -/
theorem bBlk_eq (c : Dev nD) (t : Fin 64) (p : Fin 2048) (q : Fin 512) :
    bBlk (iblk m c 0 (ptOf t)) (iblk m c 1 (ptOf t)) p q
      = Cert.Spec.bAt (m ((c.tc : Thread nD τ).loc main_arg0)) (m ((c.tc : Thread nD τ).loc main_arg1)) (ix2 (Cert.Spec.rowIn t p) q) := by
  unfold bBlk Cert.Spec.bAt Cert.Spec.hAt
  rw [iblk0_apply, iblk1_apply, rowOf_ix2]
  rfl

/-- Lane k (1 ≤ k ≤ 9) of row 0 of block t of the counts array: the block's count below k, a natural number. -/
theorem counts_lane (c : Dev nD) (t : Fin 64) (k : Fin 128) (hk1 : 1 ≤ k.val) (hk9 : k.val ≤ 9) :
    G2 m c (ix3 t (0 : Fin 8) k)
      = (((Cert.Spec.cntIn (Cert.Spec.sAt (m ((c.tc : Thread nD τ).loc main_arg0)) (m ((c.tc : Thread nD τ).loc main_arg1))) k.val t : ℕ) : ℝ) : EReal) := by
  show out2 (F := Ideal) (iblk m c 0 (ptOf t)) (iblk m c 1 (ptOf t)) (ix3 (0 : Fin 1) (0 : Fin 8) k) = _
  rw [out2_apply _ _ _ _ hk1 hk9]
  simp only [sBlk_eq]
  exact Cert.Spec.cntIn_eq _ _ _

/-- Lane k (1 ≤ k ≤ 9) of row 0 of block t of the sums array. -/
theorem sums_lane (c : Dev nD) (t : Fin 64) (k : Fin 128) (hk1 : 1 ≤ k.val) (hk9 : k.val ≤ 9) :
    G3 m c (ix3 t (0 : Fin 8) k)
      = ∑ p : Fin 2048, ∑ q : Fin 512,
          (if Cert.Spec.sAt (m ((c.tc : Thread nD τ).loc main_arg0)) (m ((c.tc : Thread nD τ).loc main_arg1)) (ix2 (Cert.Spec.rowIn t p) q) < ((k.val : ℝ) : EReal) then (1 : EReal) else 0)
            * Cert.Spec.bAt (m ((c.tc : Thread nD τ).loc main_arg0)) (m ((c.tc : Thread nD τ).loc main_arg1)) (ix2 (Cert.Spec.rowIn t p) q) := by
  show out3 (F := Ideal) (iblk m c 0 (ptOf t)) (iblk m c 1 (ptOf t)) (ix3 (0 : Fin 1) (0 : Fin 8) k) = _
  rw [out3_apply _ _ _ _ hk1 hk9]
  simp only [sBlk_eq, bBlk_eq]

/-- Lane 0 of row 0 of block t of the sums array: the block's whole cross-entropy sum. -/
theorem sums_lane_zero (c : Dev nD) (t : Fin 64) :
    G3 m c (ix3 t (0 : Fin 8) (0 : Fin 128))
      = ∑ p : Fin 2048, ∑ q : Fin 512,
          Cert.Spec.bAt (m ((c.tc : Thread nD τ).loc main_arg0)) (m ((c.tc : Thread nD τ).loc main_arg1)) (ix2 (Cert.Spec.rowIn t p) q) := by
  show out3 (F := Ideal) (iblk m c 0 (ptOf t)) (iblk m c 1 (ptOf t)) (ix3 (0 : Fin 1) (0 : Fin 8) (0 : Fin 128)) = _
  rw [out3_apply_zero]
  simp only [bBlk_eq]

/-- The blocks' counts below k add up to the whole count. -/
theorem cntIn_total (s : Cert.Spec.SX.Idx → EReal) (k : ℕ) :
    ((((∑ t : Fin 64, Cert.Spec.cntIn s k t : ℕ)) : ℝ) : EReal) = Cert.Spec.cntLt s k := by
  rw [Nat.cast_sum, Cert.Spec.coe_sum_real]
  simp only [← Cert.Spec.cntIn_eq]
  exact Cert.Spec.sum_blocks fun i => if s i < ((k : ℝ) : EReal) then (1 : EReal) else 0

/-- What the host operations after the region compute from the two arrays the region wrote is the loss of the
    two argument arrays, summed bin by bin: the arrays are the blocks' counts and sums lane by lane, the integer sum
    of the counts over the blocks is the whole count, and the float sums over the blocks are the whole sums. -/
theorem kernel_val (c : Dev nD) (i : S_.Idx) :
    Pipeline.afterTail₀ cfgs (dats m) 0 (V0 m) tailOps c main_v39 i
      = Cert.Spec.lossK (m ((c.tc : Thread nD τ).loc main_arg0)) (m ((c.tc : Thread nD τ).loc main_arg1)) := by
  obtain rfl : i = ix0 := eq_ix0 i
  have h2 := (Pipeline.withArrays_arr spec0 launch0.win.arr_inj c (V0 m c) (fun w => (dats m 0 c).arrAt w cfg0.N) 2).trans (final2 m c)
  have h3 := (Pipeline.withArrays_arr spec0 launch0.win.arr_inj c (V0 m c) (fun w => (dats m 0 c).arrAt w cfg0.N) 3).trans (final3 m c)
  unfold Pipeline.afterTail₀
  refine (congrFun (after_tail (F := Ideal) _) ix0).trans ?_
  refine (congrArg₂ (fun A B => tailVal (F := Ideal) A B ix0) h2 h3).trans ?_
  rw [tailVal_apply (G2 m c) (G3 m c)
    (fun t k => Cert.Spec.cntIn (Cert.Spec.sAt (m ((c.tc : Thread nD τ).loc main_arg0)) (m ((c.tc : Thread nD τ).loc main_arg1))) k t)
    (fun t k => Cert.Spec.cntIn_le _ k t) (fun t k h1 h9 => counts_lane m c t k h1 h9)]
  unfold Cert.Spec.lossK
  refine congrArg₂ Cert.Spec.lossCum (funext fun k => ?_) (funext fun k => ?_)
  · unfold Cert.Spec.cumC
    split_ifs
    · rfl
    · rfl
    · exact cntIn_total _ _
  · unfold Cert.Spec.cumB
    by_cases h0 : k.val = 0
    · rw [if_pos h0, if_pos h0]
    · rw [if_neg h0, if_neg h0]
      by_cases h10 : k.val = 10
      · rw [if_pos h10]
        have e : ∀ t : Fin 64, G3 m c (ix3 t (0 : Fin 8) (⟨k.val % 10, by omega⟩ : Fin 128)) = G3 m c (ix3 t (0 : Fin 8) (0 : Fin 128)) :=
          fun t => congrArg (fun l : Fin 128 => G3 m c (ix3 t (0 : Fin 8) l)) (Fin.ext (by show k.val % 10 = 0; omega))
        rw [Finset.sum_congr rfl (fun t _ => (e t).trans (sums_lane_zero m c t))]
        exact Cert.Spec.sum_blocks (fun i => Cert.Spec.bAt (m ((c.tc : Thread nD τ).loc main_arg0)) (m ((c.tc : Thread nD τ).loc main_arg1)) i)
      · rw [if_neg h10]
        have hk : k.val % 10 = k.val := by have := k.isLt; omega
        rw [Finset.sum_congr rfl (fun t _ => sums_lane m c t (⟨k.val % 10, by omega⟩ : Fin 128) (by show 1 ≤ k.val % 10; omega) (by show k.val % 10 ≤ 9; omega))]
        simp only [hk]
        exact Cert.Spec.sum_blocks (fun i =>
          (if Cert.Spec.sAt (m ((c.tc : Thread nD τ).loc main_arg0)) (m ((c.tc : Thread nD τ).loc main_arg1)) i < ((k.val : ℝ) : EReal) then (1 : EReal) else 0)
            * Cert.Spec.bAt (m ((c.tc : Thread nD τ).loc main_arg0)) (m ((c.tc : Thread nD τ).loc main_arg1)) i)

end Cert.KernelIdeal.Hand

end
-- ==== Proof.RRead.lean ====
/-
  What the reference computes, read as the element-by-element loss of Proof/Spec.lean: the constants, one element's
  one-hot entry, scaled magnitude and cross-entropy term, the bin index word, the scatter-add that counts the bins,
  the weights and the gather, and the final sum.
-/
import proofs.«406612_j38671885533680_3_alg».proof.Proof.RefRead
import proofs.«406612_j38671885533680_3_alg».proof.Proof.Spec
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

/-! ## The constants -/

theorem one_f32 : Ideal.ofBits .f32 0x3F800000#32 = 1 := by
  simp [Ideal.ofBits, Ideal.ieee, -EReal.coe_mul]; norm_num

theorem ten_f32 : Ideal.ofBits .f32 0x41200000#32 = ((10 : ℝ) : EReal) := by
  simp [Ideal.ofBits, Ideal.ieee, -EReal.coe_mul]; norm_num

theorem tot_f32 : Ideal.ofBits .f32 0x4C800000#32 = ((67108864 : ℝ) : EReal) := by
  simp [Ideal.ofBits, Ideal.ieee, -EReal.coe_mul]; norm_num

/-! ## One element -/

variable (x0 : (⟨S131072x512, .f32⟩ : BufTy).Contents (Elt Ideal)) (x1 : (⟨S131072, .i32⟩ : BufTy).Contents (Elt Ideal))

/-- The one-hot entry. -/
theorem v0_eq (i : S131072x512.Idx) : val_main_v0 (F := Ideal) x1 i = Cert.Spec.hAt x1 i := by
  rw [val_main_v0_apply, val_main_call0_v4_apply, val_main_call0_v2_apply, val_main_call0_v0_apply,
    val_main_call0_v3_apply, val_main_call0_v1_apply]
  show (((IntOp.cmpi .eq (x1 (Cert.Spec.rowOf i)) (BitVec.ofNat 32 (i 1).val)).toNat : ℝ) : EReal) = _
  unfold Cert.Spec.hAt Cert.Spec.hot IntOp.cmpi
  by_cases h : x1 (Cert.Spec.rowOf i) = BitVec.ofNat 32 (i 1).val
  · rw [if_pos h]; simp [h]
  · rw [if_neg h]; simp [h]

/-- The scaled magnitude. -/
theorem v10_eq (i : S131072x512.Idx) : val_main_v10 (F := Ideal) x0 x1 i = Cert.Spec.sAt x0 x1 i := by
  rw [val_main_v10_apply, val_main_v8_apply, val_main_v7_apply, val_main_v6_apply, val_main_v5_apply, val_main_cst_0_apply,
    val_main_v4_apply, val_main_v3_apply, val_main_cst_apply, val_main_v2_apply, val_main_v1_apply, val_main_v9_apply,
    val_main_cst_1_apply, v0_eq]
  simp only [Ideal.ofBits_def, one_f32, ten_f32, Ideal.mulf_def, Ideal.hostAbsf_def, Ideal.absf_def, Ideal.subf_def,
    Ideal.hostDivf_def, Ideal.addf_def, Ideal.hostUnary_exp_def, Ideal.hostNegf_def, Ideal.negf_def]
  rfl

/-- The cross-entropy term. -/
theorem v46_eq (i : S131072x512.Idx) : val_main_v46 (F := Ideal) x0 x1 i = Cert.Spec.bAt x0 x1 i := by
  rw [val_main_v46_apply, val_main_v41_apply, val_main_v39_apply, val_main_v38_apply, val_main_cst_12_apply,
    val_main_v40_apply, val_main_v45_apply, val_main_v44_apply, val_main_v43_apply, val_main_v42_apply, v0_eq]
  simp only [Ideal.ofBits_def, Ideal.ofBits_zero_f32, Ideal.mulf_def, Ideal.hostAbsf_def, Ideal.absf_def, Ideal.subf_def,
    Ideal.addf_def, Ideal.hostUnary_exp_def, Ideal.hostUnary_log1p_def, Ideal.hostNegf_def, Ideal.negf_def, Ideal.maximumf_def]
  rfl

/-! ## The bin index word -/

/-- A non-negative integer below 2^31 survives the trip through a 32-bit word read signed. -/
theorem toInt_ofInt32 (z : ℤ) (h0 : 0 ≤ z) (h1 : z ≤ 2147483647) : (BitVec.ofInt 32 z).toInt = z := by
  rw [BitVec.toInt_ofInt]
  have : z.bmod (2 ^ 32) = z := by
    apply Int.bmod_eq_of_le <;> omega
  exact this

/-- The signed minimum with 9 of such a word is the minimum of the integers. -/
theorem minsi9_toInt (z : ℤ) (h0 : 0 ≤ z) (h1 : z ≤ 2147483647) :
    (IntOp.minsi (BitVec.ofInt 32 z) 9#32).toInt = min z 9 := by
  unfold IntOp.minsi
  have h9 : (9#32 : BitVec 32).toInt = 9 := by decide
  by_cases h : (BitVec.ofInt 32 z).slt 9#32 = true
  · rw [if_pos h]
    rw [BitVec.slt_iff_toInt_lt, toInt_ofInt32 z h0 h1, h9] at h
    rw [toInt_ofInt32 z h0 h1]; omega
  · rw [if_neg h]
    rw [BitVec.slt_iff_toInt_lt, toInt_ofInt32 z h0 h1, h9] at h
    rw [h9]; omega

/-- The clamped integer part of a non-negative real. -/
theorem clamp_nonneg (r : ℝ) (hr : 0 ≤ r) :
    Ideal.toIntClamped (-(2147483648 : ℤ)) 2147483647 (r : EReal) = min 2147483647 ⌊r⌋ := by
  have hf : 0 ≤ ⌊r⌋ := Int.floor_nonneg.mpr hr
  rw [Ideal.toIntClamped_coe, if_pos hr]
  omega

/-- The bin index word of a non-negative real scaled magnitude, read signed, is its bin. -/
theorem binword (r : ℝ) (hr : 0 ≤ r) :
    (IntOp.minsi (Ideal.fptosi 32 (r : EReal)) 9#32).toInt = (Cert.Spec.binOf (r : EReal) : ℤ) := by
  have hf : 0 ≤ ⌊r⌋ := Int.floor_nonneg.mpr hr
  have e : Ideal.fptosi 32 (r : EReal) = BitVec.ofInt 32 (min 2147483647 ⌊r⌋) := by
    unfold Ideal.fptosi
    rw [← clamp_nonneg r hr]
    norm_num
  rw [e, minsi9_toInt _ (by omega) (by omega)]
  unfold Cert.Spec.binOf
  rw [clamp_nonneg r hr]
  omega

/-! ## The scatter-add that counts the bins -/

/-- Where update `k` reads its start index: row `k`, the one column. -/
abbrev kIdx (k : S67108864.Idx) : S67108864x1.Idx := fun a => match a with
  | ⟨0, _⟩ => ⟨(k 0).val, (k 0).isLt⟩
  | ⟨1, _⟩ => ⟨0, Nat.one_pos⟩

theorem scatter_start (idx : IVec S67108864x1 32) (k : S67108864.Idx) (a : Fin S10.rank) :
    scatter_S10_S67108864x1_S67108864_n_0_0_1.start k idx a = (idx (kIdx k)).toInt := by
  obtain rfl : a = 0 := Subsingleton.elim _ _
  unfold ScatterDims.start
  rw [dif_pos (show (0 : Fin 1) ∈ scatter_S10_S67108864x1_S67108864_n_0_0_1.scatterDimsToOperandDims from List.mem_singleton.mpr rfl)]
  have hsi : scatter_S10_S67108864x1_S67108864_n_0_0_1.siIdx k
      ⟨List.idxOf (0 : Fin 1) scatter_S10_S67108864x1_S67108864_n_0_0_1.scatterDimsToOperandDims,
        List.idxOf_lt_length_iff.2 (List.mem_singleton.mpr rfl)⟩ = kIdx k := by
    funext b; refine Fin.ext ?_
    match b with
    | ⟨0, _⟩ => rfl
    | ⟨1, _⟩ => rfl
  rw [hsi]

theorem scatter_window (k : S67108864.Idx) (a : Fin S10.rank) :
    scatter_S10_S67108864x1_S67108864_n_0_0_1.window k a = 0 := by
  obtain rfl : a = 0 := Subsingleton.elim _ _
  unfold ScatterDims.window
  rw [dif_neg (by decide)]

/-- Update `k` lands at bin `j` exactly when its start index, read signed, is `j`. -/
theorem scatter_lands (idx : IVec S67108864x1 32) (k : S67108864.Idx) (j : S10.Idx) :
    scatter_S10_S67108864x1_S67108864_n_0_0_1.resultIdx? k idx = some j ↔ (idx (kIdx k)).toInt = ((j 0).val : ℤ) := by
  have hj : (j 0).val < 10 := (j 0).isLt
  unfold ScatterDims.resultIdx?
  simp only [scatter_start, scatter_window]
  split_ifs with h
  · have h' := h 0
    constructor
    · intro e
      have e' := congrFun (Option.some.inj e) 0
      have e'' := congrArg Fin.val e'
      simp only at e''
      omega
    · intro e
      refine congrArg some (funext fun a => ?_)
      obtain rfl : a = 0 := Subsingleton.elim _ _
      refine Fin.ext ?_
      show ((idx (kIdx k)).toInt + ((0 : ℕ) : ℤ)).toNat = (j 0).val
      omega
  · constructor
    · intro e; cases e
    · intro e; exfalso; apply h; intro a
      obtain rfl : a = 0 := Subsingleton.elim _ _
      show 0 ≤ (idx (kIdx k)).toInt + ((0 : ℕ) : ℤ) ∧ (idx (kIdx k)).toInt + ((0 : ℕ) : ℤ) < (10 : ℕ)
      omega

/-- The row-major bijection between the flat index and the element index. -/
def flatEquiv : S67108864.Idx ≃ S131072x512.Idx where
  toFun k := idx_main_v15 k
  invFun i := fun a => match a with
    | ⟨0, _⟩ => ⟨(i 0).val * 512 + (i 1).val, by
        have h0 : (i 0).val < 131072 := (i 0).isLt
        have h1 : (i 1).val < 512 := (i 1).isLt
        show (i 0).val * 512 + (i 1).val < 67108864; omega⟩
  left_inv k := by
    funext a; refine Fin.ext ?_
    match a with
    | ⟨0, _⟩ => show (k 0).val / 512 * 512 + (k 0).val % 512 = (k 0).val; omega
  right_inv i := by
    funext a; refine Fin.ext ?_
    have h1 : (i 1).val < 512 := (i 1).isLt
    match a with
    | ⟨0, _⟩ => show ((i 0).val * 512 + (i 1).val) / 512 = (i 0).val; omega
    | ⟨1, _⟩ => show ((i 0).val * 512 + (i 1).val) % 512 = (i 1).val; omega

/-- The bin index word at an element, read signed, is the element's bin. -/
theorem v13_toInt (hs : ∀ i, ∃ r : ℝ, 0 ≤ r ∧ Cert.Spec.sAt x0 x1 i = (r : EReal)) (i : S131072x512.Idx) :
    (val_main_v13 (F := Ideal) x0 x1 i).toInt = (Cert.Spec.binOf (Cert.Spec.sAt x0 x1 i) : ℤ) := by
  rw [val_main_v13_apply, val_main_v11_apply, val_main_v12_apply, val_main_c_apply, v10_eq]
  obtain ⟨r, hr, e⟩ := hs i
  rw [e]
  exact binword r hr

/-- The scatter's index array at update `k` is the bin index word of element `k` in row-major order. -/
theorem v17_at (k : S67108864.Idx) :
    val_main_v17 (F := Ideal) x0 x1 (kIdx k) = val_main_v13 (F := Ideal) x0 x1 (flatEquiv k) := by
  rw [val_main_v17_apply, val_main_v15_apply]
  have : idx_main_v17 (kIdx k) = k := by
    funext a; refine Fin.ext ?_
    match a with
    | ⟨0, _⟩ => rfl
  rw [this]
  rfl

/-- The host's scatter-add at an index: the operand there plus the updates that land there. -/
theorem scatterAdd_apply {s si su : Shape} {φ : FTy} {w : Nat} (d : ScatterDims s si su) (x : FVec Ideal s φ) (idx : IVec si w)
    (upd : FVec Ideal su φ) (i : s.Idx) :
    Host.scatterAdd d x idx upd i = x i + ∑ j ∈ Finset.univ.filter (fun j => d.resultIdx? j idx = some i), upd j := rfl

/-- The counts: bin `j` of the scatter-add holds the number of elements whose bin is `j`. -/
theorem v18_eq (hs : ∀ i, ∃ r : ℝ, 0 ≤ r ∧ Cert.Spec.sAt x0 x1 i = (r : EReal)) (j : S10.Idx) :
    val_main_v18 (F := Ideal) x0 x1 j = Cert.Spec.cntBin (Cert.Spec.sAt x0 x1) ⟨(j 0).val, (j 0).isLt⟩ := by
  unfold val_main_v18
  refine (scatterAdd_apply _ _ _ _ j).trans ?_
  rw [val_main_v16_apply, val_main_cst_3_apply, Ideal.ofBits_def, Ideal.ofBits_zero_f32, zero_add, Finset.sum_filter]
  unfold Cert.Spec.cntBin
  rw [← Equiv.sum_comp flatEquiv]
  refine Finset.sum_congr rfl fun k _ => ?_
  rw [val_main_v14_apply, val_main_cst_2_apply, Ideal.ofBits_def, one_f32]
  have hw := v13_toInt x0 x1 hs (flatEquiv k)
  rw [← v17_at] at hw
  by_cases h : Cert.Spec.binOf (Cert.Spec.sAt x0 x1 (flatEquiv k)) = (j 0).val
  · rw [if_pos ((scatter_lands _ k j).mpr (by rw [hw, h])), if_pos h]
  · rw [if_neg (fun e => h (by have := (scatter_lands _ k j).mp e; rw [hw] at this; exact_mod_cast this)), if_neg h]

/-! ## The weights -/

/-- The coordinate of an index of the ten bins. -/
abbrev f10 (j : S10.Idx) : Fin 10 := ⟨(j 0).val, (j 0).isLt⟩

/-- The ten bins' indices are the ten numbers. -/
def e10 : S10.Idx ≃ Fin 10 where
  toFun := f10
  invFun a := ValueIdx.ix1 a
  left_inv j := by
    funext a
    match a with
    | ⟨0, _⟩ => rfl
  right_inv a := rfl

/-- The float comparison "greater than zero", as a one-bit word. -/
theorem cmp_ogt_zero (a : EReal) : Ideal.cmp .ogt a 0 = if 0 < a then 1#1 else 0#1 := by
  unfold Ideal.cmp
  by_cases h : 0 < a
  · rw [if_pos h]; simp [h]
  · rw [if_neg h]; simp [h]

section weights
variable (hs : ∀ i, ∃ r : ℝ, 0 ≤ r ∧ Cert.Spec.sAt x0 x1 i = (r : EReal))
include hs

/-- Whether a bin is non-empty. -/
theorem v20_eq (j : S10.Idx) :
    val_main_v20 (F := Ideal) x0 x1 j = if 0 < Cert.Spec.cntBin (Cert.Spec.sAt x0 x1) (f10 j) then 1#1 else 0#1 := by
  rw [val_main_v20_apply, val_main_v19_apply, val_main_cst_4_apply, v18_eq x0 x1 hs, Ideal.ofBits_def, Ideal.ofBits_zero_f32,
    Ideal.cmpf_def]
  exact cmp_ogt_zero _

/-- A bin's weight. -/
theorem v27_eq (j : S10.Idx) :
    val_main_v27 (F := Ideal) x0 x1 j = Cert.Spec.wBin (Cert.Spec.cntBin (Cert.Spec.sAt x0 x1)) (f10 j) := by
  rw [val_main_v27_apply, v20_eq x0 x1 hs, val_main_v26_apply, val_main_v25_apply, val_main_cst_7_apply, val_main_v24_apply,
    val_main_v23_apply, val_main_cst_6_apply, v18_eq x0 x1 hs, val_main_call1_v1_apply, val_main_call1_v0_apply,
    val_main_cst_8_apply]
  simp only [Ideal.ofBits_def, tot_f32, one_f32, Ideal.ofBits_zero_f32, Ideal.hostDivf_def, Ideal.maximumf_def]
  unfold Cert.Spec.wBin Cert.Spec.tot
  by_cases h : 0 < Cert.Spec.cntBin (Cert.Spec.sAt x0 x1) (f10 j)
  · rw [if_pos h, if_pos h]; exact ValueIdx.select_one _ _
  · rw [if_neg h, if_neg h]; exact ValueIdx.select_zero _ _

/-- The number of non-empty bins, at least one. -/
theorem v35_eq (i : S_.Idx) :
    val_main_v35 (F := Ideal) x0 x1 i = Cert.Spec.nBins (Cert.Spec.cntBin (Cert.Spec.sAt x0 x1)) := by
  rw [val_main_v35_apply, val_main_v22_apply, val_main_cst_5_apply, val_main_cst_11_apply]
  simp only [Ideal.ofBits_def, Ideal.ofBits_zero_f32, one_f32, Ideal.maximumf_def, zero_add]
  unfold Cert.Spec.nBins
  refine congrArg (max · 1) ?_
  rw [← Equiv.sum_comp e10]
  refine Finset.sum_congr rfl fun j _ => ?_
  rw [val_main_v21_apply, v20_eq x0 x1 hs]
  show ((((if 0 < Cert.Spec.cntBin (Cert.Spec.sAt x0 x1) (f10 j) then 1#1 else 0#1 : BitVec 1)).toNat : ℝ) : EReal)
    = if 0 < Cert.Spec.cntBin (Cert.Spec.sAt x0 x1) (f10 j) then 1 else 0
  by_cases h : 0 < Cert.Spec.cntBin (Cert.Spec.sAt x0 x1) (f10 j)
  · rw [if_pos h, if_pos h]; simp
  · rw [if_neg h, if_neg h]; simp

/-- The gather's index array at an element is the bin index word: it is not negative, so the wrap-around keeps it. -/
theorem v33_at (i : S131072x512.Idx) :
    val_main_v33 (F := Ideal) x0 x1 (ValueIdx.takeIdx i) = val_main_v13 (F := Ideal) x0 x1 i := by
  rw [val_main_v33_apply]
  have hi : idx_main_v33 (ValueIdx.takeIdx i) = i := by
    funext a; refine Fin.ext ?_
    match a with
    | ⟨0, _⟩ => rfl
    | ⟨1, _⟩ => rfl
  rw [hi, val_main_v32_apply, val_main_v29_apply, val_main_v28_apply, val_main_c_9_apply]
  have h0 : (val_main_v13 (F := Ideal) x0 x1 i).slt 0#32 = false := by
    rw [Bool.eq_false_iff, Ne, BitVec.slt_iff_toInt_lt, v13_toInt x0 x1 hs i]
    have : (0#32 : BitVec 32).toInt = 0 := by decide
    rw [this]; omega
  have hc : IntOp.cmpi .slt (val_main_v13 (F := Ideal) x0 x1 i) 0#32 = 0#1 := by
    show BitVec.ofBool ((val_main_v13 (F := Ideal) x0 x1 i).slt 0#32) = 0#1
    rw [h0]; rfl
  rw [hc]
  exact ValueIdx.select_zero _ _

/-- The weight an element gathers is its own bin's. -/
theorem v34_eq (i : S131072x512.Idx) :
    val_main_v34 (F := Ideal) x0 x1 i
      = Cert.Spec.wBin (Cert.Spec.cntBin (Cert.Spec.sAt x0 x1))
          ⟨Cert.Spec.binOf (Cert.Spec.sAt x0 x1 i), Cert.Spec.binOf_lt _⟩ := by
  unfold val_main_v34
  refine (ValueIdx.gather_take_apply (N := 10) (R := 131072) (C := 512) (by decide)
    gather_S10_S131072x512x1_S131072x512_n_0_n_n_0_2_1_wf _ _ i).trans ?_
  rw [v27_eq x0 x1 hs]
  refine congrArg _ (Fin.ext ?_)
  show min (val_main_v33 (F := Ideal) x0 x1 (ValueIdx.takeIdx i)).toInt.toNat (10 - 1) = Cert.Spec.binOf (Cert.Spec.sAt x0 x1 i)
  rw [v33_at x0 x1 hs, v13_toInt x0 x1 hs i]
  have := Cert.Spec.binOf_lt (Cert.Spec.sAt x0 x1 i)
  omega

/-- The normalized weight of an element. -/
theorem v37_eq (i : S131072x512.Idx) :
    val_main_v37 (F := Ideal) x0 x1 i
      = Cert.Spec.wNorm (Cert.Spec.cntBin (Cert.Spec.sAt x0 x1))
          ⟨Cert.Spec.binOf (Cert.Spec.sAt x0 x1 i), Cert.Spec.binOf_lt _⟩ := by
  rw [val_main_v37_apply, v34_eq x0 x1 hs, val_main_v36_apply, v35_eq x0 x1 hs]
  rfl

end weights

/-- The reference's result, as a function of its two argument arrays, is the loss summed element by element,
    when every scaled magnitude is a non-negative real (so that its conversion to an integer is its floor and the
    bin index needs no wrap-around or clamp). -/
theorem val_eq_lossR (x0 : (⟨S131072x512, .f32⟩ : BufTy).Contents (Elt Ideal)) (x1 : (⟨S131072, .i32⟩ : BufTy).Contents (Elt Ideal))
    (hs : ∀ i, ∃ r : ℝ, 0 ≤ r ∧ Cert.Spec.sAt x0 x1 i = (r : EReal)) (i : S_.Idx) :
    Cert.ReferenceIdeal.ReadP.val_main_v50 (F := Ideal) x0 x1 i = Cert.Spec.lossR x0 x1 := by
  rw [val_main_v50_apply, val_main_cst_15_apply, val_main_v49_apply, val_main_cst_14_apply, val_main_v48_apply,
    val_main_cst_13_apply]
  simp only [Ideal.ofBits_def, Ideal.ofBits_zero_f32, one_f32, tot_f32, Ideal.mulf_def, Ideal.hostDivf_def, mul_one, zero_add]
  unfold Cert.Spec.lossR Cert.Spec.lossElt Cert.Spec.tot
  have hsum : ∑ j : S131072x512.Idx, val_main_v47 (F := Ideal) x0 x1 j
      = ∑ j : Cert.Spec.SX.Idx, Cert.Spec.wNorm (Cert.Spec.cntBin (Cert.Spec.sAt x0 x1))
          ⟨Cert.Spec.binOf (Cert.Spec.sAt x0 x1 j), Cert.Spec.binOf_lt _⟩ * Cert.Spec.bAt x0 x1 j :=
    Finset.sum_congr rfl fun j _ => by
      rw [val_main_v47_apply, v37_eq x0 x1 hs, v46_eq]
      rfl
  rw [hsum]

end Cert.ReferenceIdeal.RefValue

end
-- ==== Proof.SpecMath.lean ====
/-
  The two ways of summing agree: the loss summed bin by bin through cumulative counts is the loss summed element by
  element through the bin index. Everything is a finite sum of reals, so each identity is proved on the reals and
  carried to the extended reals by the coercion.
-/
import proofs.«406612_j38671885533680_3_alg».proof.Proof.Spec
import Mathlib.Algebra.Order.Floor.Ring
import Mathlib.Algebra.BigOperators.Fin
import Mathlib.Data.Fintype.BigOperators
import Mathlib.Analysis.SpecialFunctions.Log.Basic

noncomputable section

open scoped BigOperators

namespace Cert.Spec

open Idealize.ShloMosaic

/-! ## The coercion from the reals commutes with maxima and finite sums -/

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem coe_sum {ι : Type} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A one-hot entry is the coercion of a real. -/
theorem hot_real (h : EReal) (hh : h = 0 ∨ h = 1) : ∃ h' : ℝ, h = (h' : EReal) := by
  rcases hh with rfl | rfl
  · exact ⟨0, rfl⟩
  · exact ⟨1, rfl⟩

/-- A scaled magnitude of a real logit against a one-hot entry is a non-negative real. -/
theorem sc_real (x : ℝ) (h : EReal) (hh : h = 0 ∨ h = 1) : ∃ r : ℝ, 0 ≤ r ∧ sc (x : EReal) h = (r : EReal) := by
  obtain ⟨h', rfl⟩ := hot_real h hh
  refine ⟨max ((1 + Real.exp (-x))⁻¹ - h') (-((1 + Real.exp (-x))⁻¹ - h')) * 10, ?_, ?_⟩
  · exact mul_nonneg (le_max_iff.2 ((le_total 0 _).imp id neg_nonneg.2)) (by norm_num)
  · rw [sc, Ideal.logistic_coe, ← EReal.coe_sub, ← EReal.coe_neg, ← coe_max, ← EReal.coe_mul]

/-- A cross-entropy term of a real logit against a one-hot entry is a real. -/
theorem bc_real (x : ℝ) (h : EReal) (hh : h = 0 ∨ h = 1) : ∃ r : ℝ, bc (x : EReal) h = (r : EReal) := by
  obtain ⟨h', rfl⟩ := hot_real h hh
  have h1 : max (x : EReal) 0 = ((max x 0 : ℝ) : EReal) := by rw [coe_max, EReal.coe_zero]
  have h2 : -(max (x : EReal) (-(x : EReal))) = ((-(max x (-x)) : ℝ) : EReal) := by
    rw [EReal.coe_neg, coe_max, EReal.coe_neg]
  have hpos : ¬ (1 + Real.exp (-(max x (-x))) ≤ 0) := not_le.2 (by positivity)
  have h3 : Ideal.log1p (Ideal.exp (-(max (x : EReal) (-(x : EReal)))))
      = ((Real.log (1 + Real.exp (-(max x (-x)))) : ℝ) : EReal) := by
    rw [h2, Ideal.exp_coe, Ideal.log1p, ← EReal.coe_one, ← EReal.coe_add, Ideal.log_coe, if_neg hpos]
  exact ⟨max x 0 - x * h' + Real.log (1 + Real.exp (-(max x (-x)))), by
    rw [bc, h1, h3, ← EReal.coe_mul, ← EReal.coe_sub, ← EReal.coe_add]⟩

/-! ## The bin of a non-negative real -/

/-- A non-negative real lies in bin j when j ≤ σ, and σ < j + 1 unless j is the last bin. -/
theorem binOf_coe_eq_iff (σ : ℝ) (h0 : 0 ≤ σ) (j : ℕ) (hj : j < 10) :
    binOf (σ : EReal) = j ↔ ((j : ℝ) ≤ σ ∧ (j = 9 ∨ σ < (j : ℝ) + 1)) := by
  have hz : (0 : ℤ) ≤ ⌊σ⌋ := Int.floor_nonneg.2 h0
  have h1 : ((j : ℤ) ≤ ⌊σ⌋ ↔ (j : ℝ) ≤ σ) := by rw [Int.le_floor]; norm_cast
  have h2 : (⌊σ⌋ < (j : ℤ) + 1 ↔ σ < (j : ℝ) + 1) := by rw [Int.floor_lt]; norm_cast
  rw [binOf, Ideal.toIntClamped_coe, if_pos h0, ← h1, ← h2]
  omega

/-! ## Cumulative indicators on the reals -/

/-- The cumulative indicator of a real magnitude at edge k: nothing lies below edge 0, everything below edge 10. -/
def edgeInd (σ : ℝ) (k : Fin 11) : ℝ :=
  if k.val = 0 then 0 else if k.val = 10 then 1 else if σ < (k.val : ℝ) then 1 else 0

/-- Adjacent cumulative indicators differ by the indicator of the bin. -/
theorem edgeInd_succ_sub (σ : ℝ) (h0 : 0 ≤ σ) (j : Fin 10) :
    edgeInd σ j.succ - edgeInd σ j.castSucc = if binOf (σ : EReal) = j.val then 1 else 0 := by
  have hb := binOf_coe_eq_iff σ h0 j.val j.isLt
  rcases j with ⟨j, hj⟩
  simp only [edgeInd, Fin.succ_mk, Fin.castSucc_mk] at hb ⊢
  have hc : ((j + 1 : ℕ) : ℝ) = (j : ℝ) + 1 := by push_cast; ring
  have hj10 : ¬ j = 10 := by omega
  simp only [hc, if_neg hj10, if_neg (Nat.add_one_ne_zero j)]
  by_cases hP : σ < (j : ℝ)
  · have hQ : σ < (j : ℝ) + 1 := by linarith
    have hj0 : ¬ j = 0 := by
      rintro rfl
      rw [Nat.cast_zero] at hP
      exact absurd h0 (not_le.2 hP)
    have hne : ¬ binOf (σ : EReal) = j := fun h => absurd (hb.1 h).1 (not_le.2 hP)
    rw [if_pos hQ, if_neg hj0, if_pos hP, if_neg hne, ite_self, sub_self]
  · have hle : (j : ℝ) ≤ σ := not_lt.1 hP
    have hz : (if j = 0 then (0 : ℝ) else if σ < (j : ℝ) then 1 else 0) = 0 := by rw [if_neg hP, ite_self]
    rw [hz, sub_zero]
    by_cases hj9 : j = 9
    · rw [if_pos (by omega), if_pos (hb.2 ⟨hle, Or.inl hj9⟩)]
    · rw [if_neg (by omega)]
      by_cases hQ : σ < (j : ℝ) + 1
      · rw [if_pos hQ, if_pos (hb.2 ⟨hle, Or.inr hQ⟩)]
      · rw [if_neg hQ, if_neg (fun h => (hb.1 h).2.elim hj9 hQ)]

section sums
variable {ι : Type} [Fintype ι]

/-- The cumulative count at an edge is the sum of the cumulative indicators. -/
theorem cumC_coe (σ : ι → ℝ) (hcard : Fintype.card ι = 67108864) (k : Fin 11) :
    cumC (fun i => (σ i : EReal)) k = ((∑ i, edgeInd (σ i) k : ℝ) : EReal) := by
  unfold cumC edgeInd
  by_cases h0 : k.val = 0
  · simp [h0]
  · by_cases h10 : k.val = 10
    · simp only [if_neg h0, if_pos h10]
      rw [Finset.sum_const, Finset.card_univ, hcard, tot]; norm_num
    · simp only [if_neg h0, if_neg h10]
      rw [coe_sum, cntLt]
      refine Finset.sum_congr rfl (fun i _ => ?_)
      simp only [EReal.coe_lt_coe_iff]
      split_ifs <;> simp

/-- The cumulative sum of terms at an edge is the sum of the terms weighted by the cumulative indicators. -/
theorem cumB_coe (σ β : ι → ℝ) (k : Fin 11) :
    cumB (fun i => (σ i : EReal)) (fun i => (β i : EReal)) k = ((∑ i, edgeInd (σ i) k * β i : ℝ) : EReal) := by
  unfold cumB edgeInd
  by_cases h0 : k.val = 0
  · simp [h0]
  · by_cases h10 : k.val = 10
    · simp only [if_neg h0, if_pos h10, one_mul]
      rw [coe_sum, sumAll]
    · simp only [if_neg h0, if_neg h10]
      rw [coe_sum, sumLt]
      refine Finset.sum_congr rfl (fun i _ => ?_)
      simp only [EReal.coe_lt_coe_iff]
      split_ifs <;> simp

/-- A bin's count is the coercion of a real sum of indicators. -/
theorem cntBin_coe (s : ι → EReal) (j : Fin 10) :
    cntBin s j = ((∑ i, (if binOf (s i) = j.val then 1 else 0 : ℝ) : ℝ) : EReal) := by
  rw [coe_sum, cntBin]
  refine Finset.sum_congr rfl (fun i _ => ?_)
  split_ifs <;> simp

end sums

/-! ## The weights are reals -/

/-- When the ten counts are reals, every normalised weight is a real. -/
theorem wNorm_real (cnt : Fin 10 → EReal) (h : ∀ j, ∃ r : ℝ, cnt j = (r : EReal)) :
    ∃ w : Fin 10 → ℝ, ∀ j, wNorm cnt j = (w j : EReal) := by
  choose c hc using h
  obtain rfl : cnt = fun j => (c j : EReal) := funext hc
  obtain ⟨n, hn1, hn⟩ : ∃ n : ℝ, 1 ≤ n ∧ nBins (fun j => (c j : EReal)) = (n : EReal) := by
    refine ⟨max (∑ j, if 0 < c j then 1 else 0) 1, le_max_right _ _, ?_⟩
    rw [nBins, coe_max, coe_sum, EReal.coe_one]
    congr 1
    refine Finset.sum_congr rfl (fun j _ => ?_)
    simp only [EReal.coe_pos]
    split_ifs <;> simp
  have hb : ∀ j, ∃ v : ℝ, wBin (fun j => (c j : EReal)) j = (v : EReal) := by
    intro j
    unfold wBin
    split_ifs with hpos
    · have hm : max ((c j : EReal)) 1 = ((max (c j) 1 : ℝ) : EReal) := by rw [coe_max, EReal.coe_one]
      refine ⟨67108864 * (1 / max (c j) 1), ?_⟩
      rw [hm, Ideal.div_coe (ne_of_gt (lt_of_lt_of_le one_pos (le_max_right _ _))), tot, ← EReal.coe_mul]
    · exact ⟨0, rfl⟩
  choose v hv using hb
  refine ⟨fun j => v j * (1 / n), fun j => ?_⟩
  rw [wNorm, hv, hn, Ideal.div_coe (ne_of_gt (lt_of_lt_of_le one_pos hn1)), ← EReal.coe_mul]

/-! ## The two sums agree -/

/-- Summing bin by bin through cumulative edges is summing element by element through the bin index, when the
    scaled magnitudes are non-negative reals, the terms are reals, and there are 2^26 elements. -/
theorem lossCum_eq_lossElt {ι : Type} [Fintype ι] (s b : ι → EReal) (hcard : Fintype.card ι = 67108864)
    (hs : ∀ i, ∃ r : ℝ, 0 ≤ r ∧ s i = (r : EReal)) (hb : ∀ i, ∃ r : ℝ, b i = (r : EReal)) :
    lossCum (cumC s) (cumB s b) = lossElt s b := by
  classical
  choose σ hσ0 hσ using hs
  choose β hβ using hb
  obtain rfl : s = fun i => (σ i : EReal) := funext hσ
  obtain rfl : b = fun i => (β i : EReal) := funext hβ
  -- adjacent differences of the cumulative counts are the bins' counts
  have hC : (fun j : Fin 10 => cumC (fun i => (σ i : EReal)) j.succ - cumC (fun i => (σ i : EReal)) j.castSucc)
      = cntBin (fun i => (σ i : EReal)) := by
    funext j
    rw [cumC_coe σ hcard, cumC_coe σ hcard, ← EReal.coe_sub, ← Finset.sum_sub_distrib, cntBin_coe]
    congr 1
    exact Finset.sum_congr rfl (fun i _ => edgeInd_succ_sub (σ i) (hσ0 i) j)
  -- adjacent differences of the cumulative sums are the bins' sums
  have hB : ∀ j : Fin 10,
      cumB (fun i => (σ i : EReal)) (fun i => (β i : EReal)) j.succ
        - cumB (fun i => (σ i : EReal)) (fun i => (β i : EReal)) j.castSucc
      = ((∑ i, (if binOf (σ i : EReal) = j.val then 1 else 0) * β i : ℝ) : EReal) := by
    intro j
    rw [cumB_coe σ β, cumB_coe σ β, ← EReal.coe_sub, ← Finset.sum_sub_distrib]
    congr 1
    refine Finset.sum_congr rfl (fun i _ => ?_)
    rw [← sub_mul, edgeInd_succ_sub (σ i) (hσ0 i) j]
  obtain ⟨w, hw⟩ := wNorm_real (cntBin (fun i => (σ i : EReal))) (fun j => ⟨_, cntBin_coe _ j⟩)
  rw [lossCum, lossElt, hC]
  congr 1
  simp only [hB, hw, ← EReal.coe_mul, ← coe_sum]
  rw [EReal.coe_eq_coe_iff]
  -- the distributive law on the reals: each element meets exactly its own bin
  simp only [Finset.mul_sum]
  rw [Finset.sum_comm]
  refine Finset.sum_congr rfl (fun i _ => ?_)
  rw [Finset.sum_eq_single (⟨binOf (σ i : EReal), binOf_lt _⟩ : Fin 10)]
  · rw [if_pos rfl, one_mul]
  · intro j _ hj
    rw [if_neg (fun h => hj (Fin.ext h.symm)), zero_mul, mul_zero]
  · intro h
    exact absurd (Finset.mem_univ _) h

/-! ## The programs' index set -/

/-- The programs' index set has 2^26 elements: it is in bijection with the pairs of a row and a class. -/
theorem card_SX : Fintype.card SX.Idx = 67108864 := by
  rw [Fintype.card_congr (ValueIdx.idxEquiv2 (n0 := 131072) (n1 := 512)), Fintype.card_prod, Fintype.card_fin,
    Fintype.card_fin]

/-- On finite logits the two programs' results agree. -/
theorem lossK_eq_lossR (x : SX.Idx → EReal) (tg : ST.Idx → BitVec 32) (hx : ∀ i, ∃ r : ℝ, x i = (r : EReal)) :
    lossK x tg = lossR x tg := by
  have hh : ∀ i, hAt tg i = 0 ∨ hAt tg i = 1 := by
    intro i
    unfold hAt hot
    split_ifs
    · exact Or.inr rfl
    · exact Or.inl rfl
  unfold lossK lossR
  refine lossCum_eq_lossElt (sAt x tg) (bAt x tg) card_SX (fun i => ?_) (fun i => ?_)
  · obtain ⟨r, hr⟩ := hx i
    rw [sAt, hr]
    exact sc_real r _ (hh i)
  · obtain ⟨r, hr⟩ := hx i
    rw [bAt, hr]
    exact bc_real r _ (hh i)

end Cert.Spec

end
-- ==== Proof.PreFin.lean ====
/-
  From the printed precondition to the mathematics: the predicate "every entry of the array has absolute value below
  plus infinity, and the conjunction of all those bits is 1" says that every entry is a real number. The conjunction
  over the whole array being 1 gives the comparison bit 1 at each index; at one index the bit is the strict comparison
  max x (-x) < ⊤ of extended reals; of the three kinds of extended real only a real passes it, since max ⊥ ⊤ and
  max ⊤ ⊥ are both ⊤.
-/
import proofs.«406612_j38671885533680_3_alg».proof.Pre_finite_inputs
import proofs.«406612_j38671885533680_3_alg».proof.Proof.Gen.Pre_finite_inputs
import Idealize.ShloMosaic.Lib.ReduceAll
import Idealize.ShloMosaic.Lib.ValueIdx
import Idealize.ShloMosaic.PureOps.Ideal

namespace Cert.Proof.PreFin

open Idealize.ShloMosaic

/-- The rank-0 shape has one index. -/
instance : Subsingleton Cert.Pre_finite_inputs.S_.Idx := ⟨fun a b => funext fun d => d.elim0⟩

/-- An extended real whose absolute value max x (-x) is strictly below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The precondition's claim gives a real at every index of the array. -/
theorem finite_of_pre [Cert.Pre_finite_inputs.Facts] (x0 : FVec Ideal Cert.Pre_finite_inputs.S131072x512 .f32) (x1 : IVec Cert.Pre_finite_inputs.S131072 32)
    (h : Cert.Pre_finite_inputs.fn (F := Ideal) x0 x1 = fun _ => 1#1) : ∀ i, ∃ r : ℝ, x0 i = (r : EReal) := by
  intro i
  have h0 := congrFun h ValueIdx.ix0
  dsimp only [Cert.Pre_finite_inputs.fn] at h0
  have hb := Host.reduce_andi_all _ _ _ _ _ h0 i
  rw [ValueIdx.cmpf_apply] at hb
  refine real_of_abs_lt_top (x0 i) ?_
  have hc : Ideal.ofBits .f32 0x7F800000#32 = (⊤ : EReal) := by simp [Ideal.ofBits, Ideal.ieee]
  have hv : FloatOps.cmpf (F := Ideal) .olt (max (x0 i) (-(x0 i))) (⊤ : EReal) = 1#1 := by
    rw [← hc]; exact hb
  change Ideal.cmp .olt (max (x0 i) (-(x0 i))) (⊤ : EReal) = 1#1 at hv
  simp only [Ideal.cmp] at hv
  by_contra hn
  simp [hn] at hv

end Cert.Proof.PreFin
-- ==== Proof.lean ====
/-
  The certificate. Both programs compute the gradient-harmonised classification loss of a 131072 x 512 array of
  logits against integer labels: each element's gradient magnitude |sigmoid x - onehot| puts it into one of ten bins,
  a bin's weight is the number of elements over its count (divided by the number of non-empty bins), and the loss is
  the weighted sum of the elements' cross-entropy terms over the number of elements. The kernel sums bin by bin:
  per block of 2048 rows it counts, for k = 1 .. 9, the elements with 10 g < k and sums their terms; the host adds the
  blocks (the counts as integers) and takes adjacent differences of the cumulative edges. The reference sums element
  by element through the bin index floor(10 g) capped at 9. On finite logits every term is a real, an element lies in
  bin j exactly when j ≤ 10 g < j + 1 (the last bin open above), and the distributive law joins the two sums.
  The three frames: the reference is a straight line of host operations; the kernel's @main is a host reshape, the
  pipelined region and host operations after it, and the body loads and stores whole blocks only.
-/
import proofs.«406612_j38671885533680_3_alg».proof.Defs
import proofs.«406612_j38671885533680_3_alg».proof.Proof.Gen.Kernel
import proofs.«406612_j38671885533680_3_alg».proof.Proof.Gen.KernelIdeal
import proofs.«406612_j38671885533680_3_alg».proof.Proof.Gen.ReferenceIdeal
import proofs.«406612_j38671885533680_3_alg».proof.Proof.Gen.Pre_finite_inputs
import proofs.«406612_j38671885533680_3_alg».proof.Proof.KFrameB
import proofs.«406612_j38671885533680_3_alg».proof.Proof.KFrameI
import proofs.«406612_j38671885533680_3_alg».proof.Proof.KValue
import proofs.«406612_j38671885533680_3_alg».proof.Proof.RefRead
import proofs.«406612_j38671885533680_3_alg».proof.Proof.RRead
import proofs.«406612_j38671885533680_3_alg».proof.Proof.SpecMath
import proofs.«406612_j38671885533680_3_alg».proof.Proof.PreFin
import Idealize.ShloMosaic.Adequacy
import Idealize.ShloMosaic.Init

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level kernel runs to the end and leaves its arguments as launched. -/
theorem frame_k : Cert.frame_Kernel := fun m ρ _ => Cert.Kernel.Hand.frame m ρ
/-- So does the kernel read over the extended reals. -/
theorem frame_ki : Cert.frame_KernelIdeal := fun m ρ _ => Cert.KernelIdeal.Hand.frame m ρ
/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Every logit is a real under the precondition, so every scaled magnitude is a non-negative real. -/
theorem scaled_real (x : Cert.Spec.SX.Idx → EReal) (tg : Cert.Spec.ST.Idx → BitVec 32) (hx : ∀ i, ∃ r : ℝ, x i = (r : EReal)) :
    ∀ i, ∃ r : ℝ, 0 ≤ r ∧ Cert.Spec.sAt x tg i = (r : EReal) := by
  intro i
  obtain ⟨r, hr⟩ := hx i
  unfold Cert.Spec.sAt
  rw [hr]
  refine Cert.Spec.sc_real r _ ?_
  unfold Cert.Spec.hAt Cert.Spec.hot
  split_ifs
  · exact Or.inr rfl
  · exact Or.inl rfl

/-- From memories agreeing on the arguments both programs end with the same loss. -/
theorem algebraic : Cert.algebraic_KernelIdeal_ReferenceIdeal := by
  intro m ρ m' ρ' hpre hagree
  have hfin : ∀ c : Dev Cert.KernelIdeal.nD, ∀ i, ∃ r : ℝ, m ((c.tc : Thread Cert.KernelIdeal.nD Cert.KernelIdeal.τ).loc Cert.KernelIdeal.main_arg0) i = (r : EReal) :=
    fun c => Cert.Proof.PreFin.finite_of_pre _ _ (hpre c)
  refine ⟨fun c _ => Cert.Spec.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ⟨(h c).1.trans (funext fun i => Cert.KernelIdeal.Hand.kernel_val m c i), (h c).2.1, (h c).2.2⟩)
      (Cert.KernelIdeal.Hand.run_named m ρ)
  · refine (θ_run Cert.ReferenceIdeal.defs _ _).mono (fun r h c => ⟨(h c).1.trans ?_, (h c).2.1, (h c).2.2⟩)
      (Cert.ReferenceIdeal.ValueP.run (F := Ideal) m' ρ')
    rw [Cert.ReferenceIdeal.ReadP.val_main_v50_eq, (hagree c).1, (hagree c).2]
    funext i
    rw [Cert.ReferenceIdeal.RefValue.val_eq_lossR _ _ (scaled_real _ _ (hfin c)) i]
    exact (Cert.Spec.lossK_eq_lossR _ _ (hfin c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
